-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000x64 : Shape := ⟨2, ![800000, 64]⟩
abbrev S800000x2 : Shape := ⟨2, ![800000, 2]⟩
abbrev S128x128 : Shape := ⟨2, ![128, 128]⟩
abbrev S128 : Shape := ⟨1, ![128]⟩
abbrev S64x128 : Shape := ⟨2, ![64, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_

variable [Facts]

def fn_part6 {F : FTy → Type} [FloatOps F] (main_arg14 : FVec F S128 .f32) (main_arg20 : FVec F S128 .f32) (main_v98 : IVec S_ 1) (main_v101 : IVec S_ 1) : IVec S_ 1 :=
  let main_v102 : IVec S_ 1 := andi main_v98 main_v101
  let main_cst_40 : FVec F S_ .f32 := constant S_ .f32 0x00000000#32
  let main_v103 : FVec F S128 .f32 := broadcastInDim S128 ![] bcast_S_S128 main_cst_40
  let main_v104 : IVec S128 1 := cmpf .oge main_arg14 main_v103
  let main_c_41 : IVec S_ 1 := constantI S_ 1 1#1
  let main_v105 : IVec S_ 1 := (fun x v => Host.reduce IntOp.andi x v reducesTo_S128_S_d0 h_S_) main_v104 main_c_41
  let main_v106 : IVec S_ 1 := andi main_v102 main_v105
  let main_cst_42 : FVec F S_ .f32 := constant S_ .f32 0x00000000#32
  let main_v107 : FVec F S128 .f32 := broadcastInDim S128 ![] bcast_S_S128 main_cst_42
  let main_v108 : IVec S128 1 := cmpf .oge main_arg20 main_v107
  let main_c_43 : IVec S_ 1 := constantI S_ 1 1#1
  let main_v109 : IVec S_ 1 := (fun x v => Host.reduce IntOp.andi x v reducesTo_S128_S_d0 h_S_) main_v108 main_c_43
  let main_v110 : IVec S_ 1 := andi main_v106 main_v109
  main_v110

def fn_part5 {F : FTy → Type} [FloatOps F] (main_arg8 : FVec F S128 .f32) (main_arg14 : FVec F S128 .f32) (main_arg19 : FVec F S128 .f32) (main_arg20 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_cst_38 : FVec F S_ .f32 := constant S_ .f32 0x00000000#32
  let main_v99 : FVec F S128 .f32 := broadcastInDim S128 ![] bcast_S_S128 main_cst_38
  let main_v100 : IVec S128 1 := cmpf .oge main_arg8 main_v99
  let main_c_39 : IVec S_ 1 := constantI S_ 1 1#1
  let main_v101 : IVec S_ 1 := (fun x v => Host.reduce IntOp.andi x v reducesTo_S128_S_d0 h_S_) main_v100 main_c_39
  fn_part6 (F := F) main_arg14 main_arg20 main_v98 main_v101

def fn_part4 {F : FTy → Type} [FloatOps F] (main_arg8 : FVec F S128 .f32) (main_arg14 : FVec F S128 .f32) (main_arg15 : FVec F S64x128 .f32) (main_arg16 : FVec F S128 .f32) (main_arg17 : FVec F S128 .f32) (main_arg18 : FVec F S128 .f32) (main_arg19 : FVec F S128 .f32) (main_arg20 : FVec F S128 .f32) (main_v63 : IVec S_ 1) (main_v67 : IVec S_ 1) : IVec S_ 1 :=
  let main_v68 : IVec S_ 1 := andi main_v63 main_v67
  let main_v69 : FVec F S64x128 .f32 := Host.absf main_arg15
  let main_cst_26 : FVec F S_ .f32 := constant S_ .f32 0x7F800000#32
  let main_v70 : FVec F S64x128 .f32 := broadcastInDim S64x128 ![] bcast_S_S64x128 main_cst_26
  let main_v71 : IVec S64x128 1 := cmpf .olt main_v69 main_v70
  let main_c_27 : IVec S_ 1 := constantI S_ 1 1#1
  let main_v72 : IVec S_ 1 := (fun x v => Host.reduce IntOp.andi x v reducesTo_S64x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg8 main_arg14 main_arg19 main_arg20 main_v83 main_v84 main_cst_32

def fn_part3 {F : FTy → Type} [FloatOps F] (main_arg8 : FVec F S128 .f32) (main_arg12 : FVec F S128 .f32) (main_arg13 : FVec F S128 .f32) (main_arg14 : FVec F S128 .f32) (main_arg15 : FVec F S64x128 .f32) (main_arg16 : FVec F S128 .f32) (main_arg17 : FVec F S128 .f32) (main_arg18 : FVec F S128 .f32) (main_arg19 : FVec F S128 .f32) (main_arg20 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg8 main_arg14 main_arg15 main_arg16 main_arg17 main_arg18 main_arg19 main_arg20 main_v63 main_v67

def fn_part2 {F : FTy → Type} [FloatOps F] (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S64x128 .f32) (main_arg16 : FVec F S128 .f32) (main_arg17 : FVec F S128 .f32) (main_arg18 : FVec F S128 .f32) (main_arg19 : FVec F S128 .f32) (main_arg20 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg8 main_arg12 main_arg13 main_arg14 main_arg15 main_arg16 main_arg17 main_arg18 main_arg19 main_arg20 main_v48 main_v49 main_v50

def fn_part1 {F : FTy → Type} [FloatOps F] (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S64x128 .f32) (main_arg16 : FVec F S128 .f32) (main_arg17 : FVec F S128 .f32) (main_arg18 : FVec F S128 .f32) (main_arg19 : FVec F S128 .f32) (main_arg20 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_v33

def fn {F : FTy → Type} [FloatOps F] (main_arg0 : FVec F S100000x128 .f32) (main_arg1 : FVec F S800000x64 .f32) (main_arg2 : IVec S800000x2 32) (main_arg3 : FVec F S128x128 .f32) (main_arg4 : FVec F S128 .f32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S64x128 .f32) (main_arg16 : FVec F S128 .f32) (main_arg17 : FVec F S128 .f32) (main_arg18 : FVec F S128 .f32) (main_arg19 : FVec F S128 .f32) (main_arg20 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S100000x128 : Shape := ⟨2, ![100000, 128]⟩
abbrev S800000x64 : Shape := ⟨2, ![800000, 64]⟩
abbrev S800000x2 : Shape := ⟨2, ![800000, 2]⟩
abbrev S128x128 : Shape := ⟨2, ![128, 128]⟩
abbrev S128 : Shape := ⟨1, ![128]⟩
abbrev S64x128 : Shape := ⟨2, ![64, 128]⟩
abbrev S_ : Shape := ⟨0, ![]⟩
abbrev S1x128 : Shape := ⟨2, ![1, 128]⟩
abbrev S2000x128 : Shape := ⟨2, ![2000, 128]⟩
abbrev S800000x1 : Shape := ⟨2, ![800000, 1]⟩
abbrev S800000 : Shape := ⟨1, ![800000]⟩
abbrev S800000x128 : Shape := ⟨2, ![800000, 128]⟩
abbrev S5000x128 : Shape := ⟨2, ![5000, 128]⟩
abbrev S5000x64 : Shape := ⟨2, ![5000, 64]⟩

abbrev nBuf : Space → Nat
  | .hbm => 80
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S800000x64, .f32⟩
  | .hbm, ⟨2, _⟩ => ⟨S800000x2, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S64x128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S128, .f32⟩
  | .hbm, ⟨28, _⟩ => ⟨S1x128, .f32⟩
  | .hbm, ⟨29, _⟩ => ⟨S128x128, .f32⟩
  | .hbm, ⟨30, _⟩ => ⟨S128x128, .f32⟩
  | .hbm, ⟨31, _⟩ => ⟨S128, .f32⟩
  | .hbm, ⟨32, _⟩ => ⟨S128, .f32⟩
  | .hbm, ⟨33, _⟩ => ⟨S1x128, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S128, .f32⟩
  | .hbm, ⟨38, _⟩ => ⟨S128, .f32⟩
  | .hbm, ⟨39, _⟩ => ⟨S128, .f32⟩
  | .hbm, ⟨40, _⟩ => ⟨S128, .f32⟩
  | .hbm, ⟨41, _⟩ => ⟨S1x128, .f32⟩
  | .hbm, ⟨42, _⟩ => ⟨S128x128, .f32⟩
  | .hbm, ⟨43, _⟩ => ⟨S128x128, .f32⟩
  | .hbm, ⟨44, _⟩ => ⟨S128, .f32⟩
  | .hbm, ⟨45, _⟩ => ⟨S128, .f32⟩
  | .hbm, ⟨46, _⟩ => ⟨S1x128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S128, .f32⟩
  | .hbm, ⟨52, _⟩ => ⟨S128, .f32⟩
  | .hbm, ⟨53, _⟩ => ⟨S128, .f32⟩
  | .hbm, ⟨54, _⟩ => ⟨S1x128, .f32⟩
  | .hbm, ⟨55, _⟩ => ⟨S64x128, .f32⟩
  | .hbm, ⟨56, _⟩ => ⟨S64x128, .f32⟩
  | .hbm, ⟨57, _⟩ => ⟨S128, .f32⟩
  | .hbm, ⟨58, _⟩ => ⟨S128, .f32⟩
  | .hbm, ⟨59, _⟩ => ⟨S1x128, .f32⟩
  | .hbm, ⟨60, _⟩ => ⟨S100000x128, .f32⟩
  | .hbm, ⟨61, _⟩ => ⟨S800000x1, .i32⟩
  | .hbm, ⟨62, _⟩ => ⟨S800000, .i32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x128, .f32⟩
  | .hbm, ⟨72, _⟩ => ⟨S800000x128, .f32⟩
  | .hbm, ⟨73, _⟩ => ⟨S800000x1, .i32⟩
  | .hbm, ⟨74, _⟩ => ⟨S800000, .i32⟩
  | .hbm, ⟨75, _⟩ => ⟨S_, .f32⟩
  | .hbm, ⟨76, _⟩ => ⟨S100000x128, .f32⟩
  | .hbm, ⟨77, _⟩ => ⟨S800000x1, .i32⟩
  | .hbm, ⟨78, _⟩ => ⟨S100000x128, .f32⟩
  | .hbm, ⟨79, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S5000x128, .f32⟩
  | .local _ .vmem, ⟨7, _⟩ => ⟨S5000x128, .f32⟩
  | .local _ .vmem, ⟨8, _⟩ => ⟨S5000x64, .f32⟩
  | .local _ .vmem, ⟨9, _⟩ => ⟨S5000x64, .f32⟩
  | .local _ .vmem, ⟨10, _⟩ => ⟨S128x128, .f32⟩
  | .local _ .vmem, ⟨11, _⟩ => ⟨S1x128, .f32⟩
  | .local _ .vmem, ⟨12, _⟩ => ⟨S64x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_0 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_1 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c : Ref sig .tc := ⟨.hbm, 63, rfl⟩
abbrev main_v39 : Ref sig .tc := ⟨.hbm, 64, rfl⟩
abbrev main_v40 : Ref sig .tc := ⟨.hbm, 65, rfl⟩
abbrev main_c_2 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_3 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S128 : S_.BroadcastsInDim S128 (![] : Fin 0 → Fin S128.rank)
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  shapeCasts_S128_S1x128 : S128.ShapeCasts S1x128
  bcast_S1x128_S64x128_0_1 : S1x128.BroadcastsInDim S64x128 (![0, 1] : Fin 2 → Fin S64x128.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S800000x2_S800000x1_0_1 : S800000x2.Slices ![0, 1] S800000x1
  shapeCasts_S800000x1_S800000 : S800000x1.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  inb_S5000x64_S5000x64_0_0 : ∀ a, (![0, 0] : Fin 2 → Nat) a + S5000x64.size a ≤ S5000x64.size a
  h_S5000x64 : 0 < S5000x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  slices_S800000x2_S800000x1_0_0 : S800000x2.Slices ![0, 0] S800000x1
  bcast_S_S100000x128 : S_.BroadcastsInDim S100000x128 (![] : Fin 0 → Fin S100000x128.rank)
  dot_S2000x128_S128x128_S2000x128_1_0_0_1_n_n_wf : DotDims.WF S2000x128 S128x128 S2000x128 [1] [0] [0] [1] [] []
  gather_S100000x128_S800000x1_S800000x128_1_0_n_n_0_1_1128_wf : GatherDims.WF S100000x128 S800000x1 S800000x128 [1] [0] [] [0] [] 1 ![1, 128]
  dot_S5000x128_S128x128_S5000x128_1_0_0_1_n_n_wf : DotDims.WF S5000x128 S128x128 S5000x128 [1] [0] [0] [1] [] []
  dot_S5000x64_S64x128_S5000x128_1_0_0_1_n_n_wf : DotDims.WF S5000x64 S64x128 S5000x128 [1] [0] [0] [1] [] []
  scatter_S100000x128_S800000x1_S800000x128_1_0_0_1_wf : ScatterDims.WF S100000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S800000x128.size a
  hwx1_0 : ∀ i : grid1.Coords, EltTy.bits .f32 = 32 ∨ (Rect.block (s := S800000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S800000x64.size a
  hwx1_1 : ∀ i : grid1.Coords, EltTy.bits .f32 = 32 ∨ (Rect.block (s := S800000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S800000x128.size a
  hwx1_6 : ∀ i : grid1.Coords, EltTy.bits .f32 = 32 ∨ (Rect.block (s := S800000x128) S5000x128.size (cc1_transform_6 i) (hinb1_6 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S800000x64 : Shape := ⟨2, ![800000, 64]⟩
abbrev S800000x2 : Shape := ⟨2, ![800000, 2]⟩
abbrev S128x128 : Shape := ⟨2, ![128, 128]⟩
abbrev S128 : Shape := ⟨1, ![128]⟩
abbrev S64x128 : Shape := ⟨2, ![64, 128]⟩
abbrev S1x128 : Shape := ⟨2, ![1, 128]⟩
abbrev S_ : Shape := ⟨0, ![]⟩
abbrev S800000x1 : Shape := ⟨2, ![800000, 1]⟩
abbrev S800000 : Shape := ⟨1, ![800000]⟩
abbrev S800000x128 : Shape := ⟨2, ![800000, 128]⟩

abbrev nBuf : Space → Nat
  | .hbm => 100
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S800000x64, .f32⟩
  | .hbm, ⟨2, _⟩ => ⟨S800000x2, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S64x128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S100000x128, .f32⟩
  | .hbm, ⟨22, _⟩ => ⟨S1x128, .f32⟩
  | .hbm, ⟨23, _⟩ => ⟨S100000x128, .f32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S128, .f32⟩
  | .hbm, ⟨32, _⟩ => ⟨S1x128, .f32⟩
  | .hbm, ⟨33, _⟩ => ⟨S100000x128, .f32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S800000x1, .i32⟩
  | .hbm, ⟨42, _⟩ => ⟨S800000, .i32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S800000x128, .f32⟩
  | .hbm, ⟨53, _⟩ => ⟨S1x128, .f32⟩
  | .hbm, ⟨54, _⟩ => ⟨S800000x128, .f32⟩
  | .hbm, ⟨55, _⟩ => ⟨S800000x128, .f32⟩
  | .hbm, ⟨56, _⟩ => ⟨S1x128, .f32⟩
  | .hbm, ⟨57, _⟩ => ⟨S800000x128, .f32⟩
  | .hbm, ⟨58, _⟩ => ⟨S800000x128, .f32⟩
  | .hbm, ⟨59, _⟩ => ⟨S_, .f32⟩
  | .hbm, ⟨60, _⟩ => ⟨S128, .f32⟩
  | .hbm, ⟨61, _⟩ => ⟨S128, .f32⟩
  | .hbm, ⟨62, _⟩ => ⟨S128, .f32⟩
  | .hbm, ⟨63, _⟩ => ⟨S1x128, .f32⟩
  | .hbm, ⟨64, _⟩ => ⟨S800000x128, .f32⟩
  | .hbm, ⟨65, _⟩ => ⟨S800000x128, .f32⟩
  | .hbm, ⟨66, _⟩ => ⟨S1x128, .f32⟩
  | .hbm, ⟨67, _⟩ => ⟨S800000x128, .f32⟩
  | .hbm, ⟨68, _⟩ => ⟨S800000x128, .f32⟩
  | .hbm, ⟨69, _⟩ => ⟨S1x128, .f32⟩
  | .hbm, ⟨70, _⟩ => ⟨S800000x128, .f32⟩
  | .hbm, ⟨71, _⟩ => ⟨S800000x128, .f32⟩
  | .hbm, ⟨72, _⟩ => ⟨S800000x128, .f32⟩
  | .hbm, ⟨73, _⟩ => ⟨S1x128, .f32⟩
  | .hbm, ⟨74, _⟩ => ⟨S800000x128, .f32⟩
  | .hbm, ⟨75, _⟩ => ⟨S800000x128, .f32⟩
  | .hbm, ⟨76, _⟩ => ⟨S1x128, .f32⟩
  | .hbm, ⟨77, _⟩ => ⟨S800000x128, .f32⟩
  | .hbm, ⟨78, _⟩ => ⟨S800000x128, .f32⟩
  | .hbm, ⟨79, _⟩ => ⟨S_, .f32⟩
  | .hbm, ⟨80, _⟩ => ⟨S128, .f32⟩
  | .hbm, ⟨81, _⟩ => ⟨S128, .f32⟩
  | .hbm, ⟨82, _⟩ => ⟨S128, .f32⟩
  | .hbm, ⟨83, _⟩ => ⟨S1x128, .f32⟩
  | .hbm, ⟨84, _⟩ => ⟨S800000x128, .f32⟩
  | .hbm, ⟨85, _⟩ => ⟨S800000x128, .f32⟩
  | .hbm, ⟨86, _⟩ => ⟨S1x128, .f32⟩
  | .hbm, ⟨87, _⟩ => ⟨S800000x128, .f32⟩
  | .hbm, ⟨88, _⟩ => ⟨S800000x128, .f32⟩
  | .hbm, ⟨89, _⟩ => ⟨S1x128, .f32⟩
  | .hbm, ⟨90, _⟩ => ⟨S800000x128, .f32⟩
  | .hbm, ⟨91, _⟩ => ⟨S800000x128, .f32⟩
  | .hbm, ⟨92, _⟩ => ⟨S800000x128, .f32⟩
  | .hbm, ⟨93, _⟩ => ⟨S800000x1, .i32⟩
  | .hbm, ⟨94, _⟩ => ⟨S800000, .i32⟩
  | .hbm, ⟨95, _⟩ => ⟨S_, .f32⟩
  | .hbm, ⟨96, _⟩ => ⟨S100000x128, .f32⟩
  | .hbm, ⟨97, _⟩ => ⟨S800000x1, .i32⟩
  | .hbm, ⟨98, _⟩ => ⟨S100000x128, .f32⟩
  | .hbm, ⟨99, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c : Ref sig .tc := ⟨.hbm, 43, rfl⟩
abbrev main_v21 : Ref sig .tc := ⟨.hbm, 44, rfl⟩
abbrev main_v22 : Ref sig .tc := ⟨.hbm, 45, rfl⟩
abbrev main_c_0 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_1 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_2 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_3 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  slices_S800000x2_S800000x1_0_1 : S800000x2.Slices ![0, 1] S800000x1
  shapeCasts_S800000x1_S800000 : S800000x1.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  bcast_S1x128_S800000x128_0_1 : S1x128.BroadcastsInDim S800000x128 (![0, 1] : Fin 2 → Fin S800000x128.rank)
  slices_S800000x2_S800000x1_0_0 : S800000x2.Slices ![0, 0] S800000x1
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  gather_S100000x128_S800000x1_S800000x128_1_0_n_n_0_1_1128_wf : GatherDims.WF S100000x128 S800000x1 S800000x128 [1] [0] [] [0] [] 1 ![1, 128]
  dot_S800000x128_S128x128_S800000x128_1_0_0_1_n_n_wf : DotDims.WF S800000x128 S128x128 S800000x128 [1] [0] [0] [1] [] []
  dot_S800000x64_S64x128_S800000x128_1_0_0_1_n_n_wf : DotDims.WF S800000x64 S64x128 S800000x128 [1] [0] [0] [1] [] []
  scatter_S100000x128_S800000x1_S800000x128_1_0_0_1_wf : ScatterDims.WF S100000x128 S800000x1 S800000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x64_S64x128_S800000x128_1_0_0_1_n_n : DotDims S800000x64 S64x128 S800000x128 where
  lhsContracting := [1]
  rhsContracting := [0]
  lhsNonContracting := [0]
  rhsNonContracting := [1]
  lhsBatch := []
  rhsBatch := []
  wf := dot_S800000x64_S64x128_S800000x128_1_0_0_1_n_n_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf

class Facts : Prop extends Facts₀ where

variable [Facts]
-- ==== Proof.KSpec.lean ====
/-
  What the two kernel regions compute, as whole-array functions on the extended reals.

  A dense layer sends row `r` of `x` and column `q` of `w` to `Σ_k x[r,k]·w[k,q] + b[0,q]`; the second region
  multiplies two such layers entry by entry.
-/
import Idealize.ShloMosaic.PureOps.Ideal
import Idealize.ShloMosaic.Lib.ValueIdx

noncomputable section

namespace Cert.KSpec

open Idealize.ShloMosaic Idealize.ShloMosaic.ValueIdx
open Finset BigOperators

/-- The row coordinate of an index of a rank-2 array, at its literal bound. -/
abbrev row {n0 n1 : Nat} (i : (⟨2, ![n0, n1]⟩ : Shape).Idx) : Fin n0 := ⟨(i 0).val, idx2_lt0 i⟩

/-- The column coordinate of an index of a rank-2 array, at its literal bound. -/
abbrev col {n0 n1 : Nat} (i : (⟨2, ![n0, n1]⟩ : Shape).Idx) : Fin n1 := ⟨(i 1).val, idx2_lt1 i⟩

/-- A dense layer with 128 output columns: entry `(r, q)` is row `r` of `x` against column `q` of `w`, plus
    entry `q` of the one-row bias `b`. -/
def dense {M K : Nat} (x : (⟨2, ![M, K]⟩ : Shape).Idx → EReal) (w : (⟨2, ![K, 128]⟩ : Shape).Idx → EReal)
    (b : (⟨2, ![1, 128]⟩ : Shape).Idx → EReal) : (⟨2, ![M, 128]⟩ : Shape).Idx → EReal :=
  fun i => (∑ k : Fin K, x (ix2 (row i) k) * w (ix2 k (col i))) + b (ix2 0 (col i))

/-- Two dense layers multiplied entry by entry: the first on `x` (contraction length 128), the second on `y`
    (contraction length 64). -/
def fused (x : (⟨2, ![800000, 128]⟩ : Shape).Idx → EReal) (y : (⟨2, ![800000, 64]⟩ : Shape).Idx → EReal)
    (w2 : (⟨2, ![128, 128]⟩ : Shape).Idx → EReal) (b2 : (⟨2, ![1, 128]⟩ : Shape).Idx → EReal)
    (w3 : (⟨2, ![64, 128]⟩ : Shape).Idx → EReal) (b3 : (⟨2, ![1, 128]⟩ : Shape).Idx → EReal) :
    (⟨2, ![800000, 128]⟩ : Shape).Idx → EReal :=
  fun i => dense x w2 b2 i * dense y w3 b3 i

end Cert.KSpec

end
-- ==== Proof.KReg0.lean ====
/-
  Region 0 (the dense layer's kernel): what its output array holds after all 50 grid points.

  Each grid point t reads rows [2000 t, 2000 t + 2000) of the input, the whole 128×128 weight matrix and the whole
  one-row bias, and leaves in its output block, at (p, q), the sum over k of input[p,k]·weight[k,q] plus bias[0,q]:
  on the extended reals the casts to and from the short float format are the identity, a shape cast to the same shape
  is the identity, and a matrix product with a zero accumulator is the plain sum over the contracted axis. The 50
  output blocks tile the 100000 rows, so the array ends as the dense layer of the region-entry arrays.
-/
import proofs.«174036_j61314953118453_1_alg».proof.Proof.Gen.KernelIdeal.Frame
import proofs.«174036_j61314953118453_1_alg».proof.Proof.KSpec
import Idealize.ShloMosaic.Lib.Pipeline.Value
import Idealize.ShloMosaic.Lib.ValueIdx
import Idealize.ShloMosaic.Lib.ValueLayout
import Idealize.ShloMosaic.PureOps.Ideal.Laws

noncomputable section
open Idealize.ShloMosaic Idealize.ShloMosaic.TcCoe Idealize.SL.Sem
open Idealize.ShloMosaic.Pipeline (Dat Cfg Window)

namespace Cert.KReg0
open Cert.KernelIdeal Cert.KernelIdeal.Gen
open Idealize.ShloMosaic.ValueIdx
open Finset BigOperators

/-! ## The matrix product at an index -/

/-- The left operand's index at output index `i` and contraction index `q`: its row is the output's row. -/
theorem lhs_row (i : S2000x128.Idx) (q : Cert.KernelIdeal.dot_S2000x128_S128x128_S2000x128_1_0_0_1_n_n.contr.Idx) :
    (Cert.KernelIdeal.dot_S2000x128_S128x128_S2000x128_1_0_0_1_n_n.lhsIdx i q 0).val = (i 0).val := by
  unfold DotDims.lhsIdx
  rw [dif_neg (show ¬(0 : Fin S2000x128.rank) ∈ Cert.KernelIdeal.dot_S2000x128_S128x128_S2000x128_1_0_0_1_n_n.lhsBatch by decide), dif_pos (show (0 : Fin S2000x128.rank) ∈ Cert.KernelIdeal.dot_S2000x128_S128x128_S2000x128_1_0_0_1_n_n.lhsNonContracting by decide)]
  rfl
/-- Its column is the contraction index. -/
theorem lhs_col (i : S2000x128.Idx) (q : Cert.KernelIdeal.dot_S2000x128_S128x128_S2000x128_1_0_0_1_n_n.contr.Idx) :
    (Cert.KernelIdeal.dot_S2000x128_S128x128_S2000x128_1_0_0_1_n_n.lhsIdx i q 1).val = (q ⟨0, by decide⟩).val :=
  Cert.KernelIdeal.dot_S2000x128_S128x128_S2000x128_1_0_0_1_n_n.lhsIdx_val_of_single rfl i q
/-- The right operand's row is the contraction index. -/
theorem rhs_row (i : S2000x128.Idx) (q : Cert.KernelIdeal.dot_S2000x128_S128x128_S2000x128_1_0_0_1_n_n.contr.Idx) :
    (Cert.KernelIdeal.dot_S2000x128_S128x128_S2000x128_1_0_0_1_n_n.rhsIdx i q 0).val = (q ⟨0, by decide⟩).val :=
  Cert.KernelIdeal.dot_S2000x128_S128x128_S2000x128_1_0_0_1_n_n.rhsIdx_val_of_single rfl i q
/-- Its column is the output's column. -/
theorem rhs_col (i : S2000x128.Idx) (q : Cert.KernelIdeal.dot_S2000x128_S128x128_S2000x128_1_0_0_1_n_n.contr.Idx) :
    (Cert.KernelIdeal.dot_S2000x128_S128x128_S2000x128_1_0_0_1_n_n.rhsIdx i q 1).val = (i 1).val := by
  unfold DotDims.rhsIdx
  rw [dif_neg (show ¬(1 : Fin S128x128.rank) ∈ Cert.KernelIdeal.dot_S2000x128_S128x128_S2000x128_1_0_0_1_n_n.rhsBatch by decide), dif_pos (show (1 : Fin S128x128.rank) ∈ Cert.KernelIdeal.dot_S2000x128_S128x128_S2000x128_1_0_0_1_n_n.rhsNonContracting by decide)]
  rfl

/-- On the extended reals the block's matrix product with a zero accumulator, read at `(p, q)`, is the sum over `k` of
    the left operand at `(p, k)` times the right at `(k, q)`. -/
theorem matmul_at (a : FVec Ideal S2000x128 .bf16) (b : FVec Ideal S128x128 .bf16) (p : Fin 2000) (q : Fin 128) :
    matmul (F := Ideal) Cert.KernelIdeal.dot_S2000x128_S128x128_S2000x128_1_0_0_1_n_n none a b (constant (F := Ideal) S2000x128 .f32 0x00000000#32) (ix2 p q)
      = ∑ k : Fin 128, a (ix2 p k) * b (ix2 k q) := by
  refine (Ideal.matmul_constant_zero_apply Cert.KernelIdeal.dot_S2000x128_S128x128_S2000x128_1_0_0_1_n_n none a b (ix2 p q)).trans ?_
  rw [← Equiv.sum_comp (ValueIdx.contrEquiv1 Cert.KernelIdeal.dot_S2000x128_S128x128_S2000x128_1_0_0_1_n_n 128 rfl rfl).symm]
  refine Finset.sum_congr rfl fun k _ => ?_
  have hk := ValueIdx.contrEquiv1_symm_val Cert.KernelIdeal.dot_S2000x128_S128x128_S2000x128_1_0_0_1_n_n 128 rfl rfl k
  have el : Cert.KernelIdeal.dot_S2000x128_S128x128_S2000x128_1_0_0_1_n_n.lhsIdx (ix2 p q) ((ValueIdx.contrEquiv1 Cert.KernelIdeal.dot_S2000x128_S128x128_S2000x128_1_0_0_1_n_n 128 rfl rfl).symm k) = ix2 p k := funext fun a => Fin.ext (by
    match a with
    | ⟨0, _⟩ => exact lhs_row _ _
    | ⟨1, _⟩ => exact (lhs_col _ _).trans hk)
  have er : Cert.KernelIdeal.dot_S2000x128_S128x128_S2000x128_1_0_0_1_n_n.rhsIdx (ix2 p q) ((ValueIdx.contrEquiv1 Cert.KernelIdeal.dot_S2000x128_S128x128_S2000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The body's payload at an index -/

/-- What the body stores at `(p, q)` of its output block, from the three blocks it loads: row `p` of the input block
    against column `q` of the weights, plus entry `q` of the one-row bias. -/
theorem pay_at (x0 : Vec Ideal S2000x128 .f32) (x1 : Vec Ideal S128x128 .f32) (x2 : Vec Ideal S1x128 .f32) (p : Fin 2000) (q : Fin 128) :
    k0_pay1 (F := Ideal) x0 x1 x2 (ix2 p q) = (∑ k : Fin 128, x0 (ix2 p k) * x1 (ix2 k q)) + x2 (ix2 0 q) := by
  unfold k0_pay1
  refine (ValueIdx.addf_apply _ _ _).trans ?_
  rw [shapeCast_self, shapeCast_self]
  refine congrArg₂ (· + ·) ((matmul_at _ _ p q).trans rfl) ?_
  exact broadcastTo_apply x2 _ (ix2 p q) (ix2 0 q) (fun a => by
    match a with
    | ⟨0, _⟩ => exact (if_pos rfl).symm
    | ⟨1, _⟩ => exact (if_neg (show ¬((128 : ℕ) = 1) by decide)).symm)

/-! ## From blocks to the array -/

theorem hz : (![0, 0] : Fin 2 → Nat) = fun _ => 0 := funext fun a => by fin_cases a <;> rfl

/-- The index maps over the grid: the input's and the output's row blocks move with the point; the weights' and the
    bias's one block stays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- What grid point `t` writes back is block `t` of the dense layer of the region-entry arrays: at `(p, q)` of the block
    the body's sum runs over row `p` of the point's input block, which is row `2000 t + p` of the input array, and over
    column `q` of the whole weight array; the bias entry is the whole one-row array's entry `q`. -/
theorem flushed_eq (c : Dev nD) (t : Fin cfg0.N) :
    (dat0 (F := Ideal) V c).flushed 3 t
      = ((cfg0.win 3).blk t).view.read (Elt Ideal) (Cert.KSpec.dense (M := 100000) (K := 128) (V c main_arg0) (V c main_v8) (V c main_v11)) := by
  show (cfg0.win 3).cut (grid0.coords t) ((dat0 (F := Ideal) V c).after 3 t) = _
  rw [after0_3]
  unfold out0_3
  rw [View.canon_unit_zero hz]
  simp only [View.ld_unit_zero (S := S2000x128) hz, View.ld_unit_zero (S := S128x128) hz, View.ld_unit_zero (S := S1x128) hz]
  obtain ⟨e00, e01, e10, e11, e20, e21, e30, e31⟩ := idx_facts t
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (iblk0 V c 2 t) (ix2 p q)
      = Cert.KSpec.dense (M := 100000) (K := 128) (V c main_arg0) (V c main_v8) (V c main_v11) (((cfg0.win 3).blk t).view.emb (ix2 p q))
  refine (pay_at _ _ _ p q).trans ?_
  have hr : (Cert.KSpec.row (n0 := 100000) (n1 := 128) (((cfg0.win 3).blk t).view.emb (ix2 p q))).val = t.val * 2000 + p.val := by
    show win0_3.index t (0 : Fin 2) * 2000 + 1 * p.val = _
    rw [e30]; omega
  have hc : (Cert.KSpec.col (n0 := 100000) (n1 := 128) (((cfg0.win 3).blk t).view.emb (ix2 p q))).val = q.val := by
    show win0_3.index t (1 : Fin 2) * 128 + 1 * q.val = _
    rw [e31]; omega
  unfold Cert.KSpec.dense
  refine congrArg₂ (· + ·) (Finset.sum_congr rfl fun k _ => congrArg₂ (· * ·) ?_ ?_) ?_
  · -- row `p` of the point's input block is row `2000 t + p` of the input array
    show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = (Cert.KSpec.row (n0 := 100000) (n1 := 128) _).val; rw [e00, hr]; omega
    | ⟨1, _⟩ => show win0_0.index t (1 : Fin 2) * 128 + 1 * k.val = k.val; rw [e01]; omega
  · -- the weights' one block is the whole array
    show V c main_v8 (((cfg0.win 1).blk t).view.emb (ix2 k q)) = _
    refine congrArg (V c main_v8) (funext fun a => Fin.ext ?_)
    match a with
    | ⟨0, _⟩ => show win0_1.index t (0 : Fin 2) * 128 + 1 * k.val = k.val; rw [e10]; omega
    | ⟨1, _⟩ => show win0_1.index t (1 : Fin 2) * 128 + 1 * q.val = (Cert.KSpec.col (n0 := 100000) (n1 := 128) _).val; rw [e11, hc]; omega
  · -- and so is the bias's
    show V c main_v11 (((cfg0.win 2).blk t).view.emb (ix2 0 q)) = _
    refine congrArg (V c main_v11) (funext fun a => Fin.ext ?_)
    match a with
    | ⟨0, _⟩ => show win0_2.index t (0 : Fin 2) * 1 + 1 * 0 = 0; rw [e20]
    | ⟨1, _⟩ => show win0_2.index t (1 : Fin 2) * 128 + 1 * q.val = (Cert.KSpec.col (n0 := 100000) (n1 := 128) _).val; rw [e21, hc]; omega

/-- An index of the output array is in point `t`'s block iff each coordinate is in the block's range on its axis. -/
theorem mem_blk (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v36).slice (win0_3.rect t)).set ↔ _
  rw [View.set_slice_whole, Rect.mem_set_unit]
  exact Iff.rfl

/-- The 50 blocks of 2000 rows tile the 100000 rows: row `r` lies in the block of point `r / 2000`. -/
theorem covered (i : S100000x128.Idx) : ∃ t : Fin cfg0.N, (cfg0.win 3).flush t = true ∧ i ∈ ((cfg0.win 3).blk t).view.set := by
  have hi0 : (i 0).val < 100000 := idx2_lt0 i
  have hi1 : (i 1).val < 128 := idx2_lt1 i
  have hN : cfg0.N = 50 := N_0
  have hlt : (i 0).val / 2000 < cfg0.N := by rw [hN]; omega
  obtain ⟨-, -, -, -, -, -, e30, e31⟩ := idx_facts ⟨(i 0).val / 2000, hlt⟩
  refine ⟨⟨(i 0).val / 2000, hlt⟩, flush0_3 _, ?_⟩
  rw [mem_blk]
  intro a
  match a with
  | ⟨0, _⟩ =>
    show win0_3.index ⟨(i 0).val / 2000, hlt⟩ (0 : Fin 2) * 2000 ≤ (i 0).val ∧ (i 0).val < win0_3.index ⟨(i 0).val / 2000, hlt⟩ (0 : Fin 2) * 2000 + 2000
    rw [e30]
    show (i 0).val / 2000 * 2000 ≤ (i 0).val ∧ (i 0).val < (i 0).val / 2000 * 2000 + 2000
    omega
  | ⟨1, _⟩ =>
    show win0_3.index ⟨(i 0).val / 2000, hlt⟩ (1 : Fin 2) * 128 ≤ (i 1).val ∧ (i 1).val < win0_3.index ⟨(i 0).val / 2000, hlt⟩ (1 : Fin 2) * 128 + 128
    rw [e31]
    omega

/-- THE OUTPUT ARRAY after all 50 points is the dense layer of the region-entry arrays. -/
theorem arrAt_eq (c : Dev nD) :
    (dat0 (F := Ideal) V c).arrAt 3 cfg0.N
      = Cert.KSpec.dense (M := 100000) (K := 128) (V c main_arg0) (V c main_v8) (V c main_v11) :=
  (dat0 (F := Ideal) V c).arrAt_eq_of_cover 3
    (Cert.KSpec.dense (M := 100000) (K := 128) (V c main_arg0) (V c main_v8) (V c main_v11))
    (fun t _ => flushed_eq V c t) covered

end Cert.KReg0
end
-- ==== Proof.KReg1.lean ====
/-
  Region 1 (the fused neighbour-bond kernel) as a whole-array function.

  Each grid point multiplies, entry by entry, two dense layers of its row block: the block of the gathered neighbour
  rows against a 128×128 weight plus a bias row, and the block of the bond features against a 64×128 weight plus a
  bias row.  The 160 row blocks of 5000 rows tile the 800000 rows, so after all points the output array is the
  entrywise product of the two dense layers of the whole inputs.
-/
import proofs.«174036_j61314953118453_1_alg».proof.Proof.Gen.KernelIdeal.Frame
import proofs.«174036_j61314953118453_1_alg».proof.Proof.KSpec
import Idealize.ShloMosaic.Lib.Pipeline.Value
import Idealize.ShloMosaic.Lib.ValueIdx
import Idealize.ShloMosaic.Lib.ValueLayout
import Idealize.ShloMosaic.PureOps.Ideal.Laws

noncomputable section
open Idealize.ShloMosaic Idealize.ShloMosaic.TcCoe Idealize.SL.Sem Idealize.ShloMosaic.ValueIdx
open Idealize.ShloMosaic.Pipeline (Dat Cfg Window)

namespace Cert.KReg1
open Cert.KernelIdeal Cert.KernelIdeal.Gen
open Finset BigOperators

/-! ## The two contractions at an index -/

/-- The left operand's row coordinate is the output's row. -/
theorem lhsN_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column coordinate is the contraction index. -/
theorem lhsN_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row coordinate is the contraction index. -/
theorem rhsN_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column coordinate is the output's column. -/
theorem rhsN_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The neighbour rows' contraction (length 128) into the zero accumulator, at an index: the plain sum of products. -/
theorem matmulN_apply (l : FVec Ideal S5000x128 .bf16) (r : FVec Ideal S128x128 .bf16) (p : Fin 5000) (q : Fin 128) :
    matmul (F := Ideal) dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhsN_0 _ _
    | ⟨1, _⟩ => exact (lhsN_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhsN_0 _ _).trans hk
    | ⟨1, _⟩ => exact rhsN_1 _ _)
  rw [el, er]

/-- The left operand's row coordinate is the output's row. -/
theorem lhsB_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
/-- The left operand's column coordinate is the contraction index. -/
theorem lhsB_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
/-- The right operand's row coordinate is the contraction index. -/
theorem rhsB_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
/-- The right operand's column coordinate is the output's column. -/
theorem rhsB_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- The bond features' contraction (length 64) into the zero accumulator, at an index: the plain sum of products. -/
theorem matmulB_apply (l : FVec Ideal S5000x64 .bf16) (r : FVec Ideal S64x128 .bf16) (p : Fin 5000) (q : Fin 128) :
    matmul (F := Ideal) dot_S5000x64_S64x128_S5000x128_1_0_0_1_n_n none l r (constant (F := Ideal) S5000x128 .f32 0x00000000#32) (ix2 p q)
      = ∑ k : Fin 64, l (ix2 p k) * r (ix2 k q) := by
  simp only [matmul]
  rw [Ideal.matmul_constant_zero_apply, ← Equiv.sum_comp (ValueIdx.contrEquiv1 dot_S5000x64_S64x128_S5000x128_1_0_0_1_n_n 64 rfl rfl).symm]
  refine Finset.sum_congr rfl fun k _ => ?_
  have hk := ValueIdx.contrEquiv1_symm_val dot_S5000x64_S64x128_S5000x128_1_0_0_1_n_n 64 rfl rfl k
  have el : dot_S5000x64_S64x128_S5000x128_1_0_0_1_n_n.lhsIdx (ix2 p q) ((ValueIdx.contrEquiv1 dot_S5000x64_S64x128_S5000x128_1_0_0_1_n_n 64 rfl rfl).symm k) = ix2 p k := funext fun a => Fin.ext (by
    match a with
    | ⟨0, _⟩ => exact lhsB_0 _ _
    | ⟨1, _⟩ => exact (lhsB_1 _ _).trans hk)
  have er : dot_S5000x64_S64x128_S5000x128_1_0_0_1_n_n.rhsIdx (ix2 p q) ((ValueIdx.contrEquiv1 dot_S5000x64_S64x128_S5000x128_1_0_0_1_n_n 64 rfl rfl).symm k) = ix2 k q := funext fun a => Fin.ext (by
    match a with
    | ⟨0, _⟩ => exact (rhsB_0 _ _).trans hk
    | ⟨1, _⟩ => exact rhsB_1 _ _)
  rw [el, er]

/-! ## The body's payload at an index -/

/-- The payload of the one store, at row `p` and column `q` of the block: the two dense layers of that row,
    multiplied.  The casts to the narrow float type and back are the identity on the extended reals, the shape casts
    are to the same shape, and each bias row is read at its one row. -/
theorem pay_apply (x0 : Vec Ideal S5000x128 .f32) (w2 : Vec Ideal S128x128 .f32) (b2 : Vec Ideal S1x128 .f32)
    (y : Vec Ideal S5000x64 .f32) (w3 : Vec Ideal S64x128 .f32) (b3 : Vec Ideal S1x128 .f32) (p : Fin 5000) (q : Fin 128) :
    k1_pay1 (F := Ideal) x0 w2 b2 y w3 b3 (ix2 p q)
      = ((∑ k : Fin 128, x0 (ix2 p k) * w2 (ix2 k q)) + b2 (ix2 (0 : Fin 1) q))
        * ((∑ k : Fin 64, y (ix2 p k) * w3 (ix2 k q)) + b3 (ix2 (0 : Fin 1) q)) := by
  unfold k1_pay1
  simp only [shapeCast_self]
  rw [mulf_apply, addf_apply, addf_apply, matmulN_apply, matmulB_apply, broadcastTo_1b_ab_apply, broadcastTo_1b_ab_apply]
  rfl

/-! ## The whole-array function at an index -/

/-- The fused function at an index whose row is `r` and whose column is `q`. -/
theorem fused_apply (x : (⟨2, ![800000, 128]⟩ : Shape).Idx → EReal) (y : (⟨2, ![800000, 64]⟩ : Shape).Idx → EReal)
    (w2 : (⟨2, ![128, 128]⟩ : Shape).Idx → EReal) (b2 : (⟨2, ![1, 128]⟩ : Shape).Idx → EReal)
    (w3 : (⟨2, ![64, 128]⟩ : Shape).Idx → EReal) (b3 : (⟨2, ![1, 128]⟩ : Shape).Idx → EReal)
    (i : (⟨2, ![800000, 128]⟩ : Shape).Idx) (r : Fin 800000) (q : Fin 128) (h0 : (i 0).val = r.val) (h1 : (i 1).val = q.val) :
    Cert.KSpec.fused x y w2 b2 w3 b3 i
      = ((∑ k : Fin 128, x (ix2 r k) * w2 (ix2 k q)) + b2 (ix2 (0 : Fin 1) q))
        * ((∑ k : Fin 64, y (ix2 r k) * w3 (ix2 k q)) + b3 (ix2 (0 : Fin 1) q)) := by
  have hr : Cert.KSpec.row i = r := Fin.ext h0
  have hc : Cert.KSpec.col i = q := Fin.ext h1
  show ((∑ k : Fin 128, x (ix2 (Cert.KSpec.row i) k) * w2 (ix2 k (Cert.KSpec.col i))) + b2 (ix2 0 (Cert.KSpec.col i)))
      * ((∑ k : Fin 64, y (ix2 (Cert.KSpec.row i) k) * w3 (ix2 k (Cert.KSpec.col i))) + b3 (ix2 0 (Cert.KSpec.col i))) = _
  rw [hr, hc]

/-! ## What a grid point writes back -/

section Blocks
variable (V : (c : Dev nD) → (b : Ref sig .tc) → Buf (Elt Ideal) ((c : Thread nD τ).loc b))

/-- Zero offsets, however spelt. -/
theorem off_zero : (![0, 0] : Fin 2 → Nat) = fun _ => 0 := funext fun a => by fin_cases a <;> rfl

/-- The windows' index maps over the 160 grid points: the two row-blocked inputs move with the output (block row `t`,
    block column 0), and the four whole-array inputs stay at block (0, 0). -/
theorem idx_facts : ∀ t : Fin cfg1.N,
    win1_6.index t (0 : Fin 2) = t.val ∧ win1_6.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Row `p` of the neighbour rows' block at point `t` is row `5000 t + p` of the array. -/
theorem nbr_blk_apply (c : Dev nD) (t : Fin cfg1.N) (p : Fin 5000) (k : Fin 128) (r : Fin 800000) (hr : r.val = t.val * 5000 + p.val) :
    (iblk1 V c 0 t : Vec Ideal S5000x128 .f32) (ix2 p k) = (V c main_v45 : (⟨2, ![800000, 128]⟩ : Shape).Idx → EReal) (ix2 r k) := by
  obtain ⟨e60, e61, e00, e01, e10, e11, e20, e21, e30, e31, e40, e41, e50, e51⟩ := idx_facts t
  unfold iblk1
  rw [View.read_apply]
  show V c main_v45 _ = V c main_v45 _
  congr 1
  funext a
  apply Fin.ext
  match a with
  | ⟨0, _⟩ => show win1_0.index t (0 : Fin 2) * 5000 + 1 * p.val = r.val; omega
  | ⟨1, _⟩ => show win1_0.index t (1 : Fin 2) * 128 + 1 * k.val = k.val; omega

/-- Row `p` of the bond features' block at point `t` is row `5000 t + p` of the array. -/
theorem bond_blk_apply (c : Dev nD) (t : Fin cfg1.N) (p : Fin 5000) (k : Fin 64) (r : Fin 800000) (hr : r.val = t.val * 5000 + p.val) :
    (iblk1 V c 1 t : Vec Ideal S5000x64 .f32) (ix2 p k) = (V c main_arg1 : (⟨2, ![800000, 64]⟩ : Shape).Idx → EReal) (ix2 r k) := by
  obtain ⟨e60, e61, e00, e01, e10, e11, e20, e21, e30, e31, e40, e41, e50, e51⟩ := idx_facts t
  unfold iblk1
  rw [View.read_apply]
  show V c main_arg1 _ = V c main_arg1 _
  congr 1
  funext a
  apply Fin.ext
  match a with
  | ⟨0, _⟩ => show win1_1.index t (0 : Fin 2) * 5000 + 1 * p.val = r.val; omega
  | ⟨1, _⟩ => show win1_1.index t (1 : Fin 2) * 64 + 1 * k.val = k.val; omega

/-- The first weight's block at every point is the whole array. -/
theorem w2_blk_apply (c : Dev nD) (t : Fin cfg1.N) (k : Fin 128) (q : Fin 128) :
    (iblk1 V c 2 t : Vec Ideal S128x128 .f32) (ix2 k q) = (V c main_v20 : (⟨2, ![128, 128]⟩ : Shape).Idx → EReal) (ix2 k q) := by
  obtain ⟨e60, e61, e00, e01, e10, e11, e20, e21, e30, e31, e40, e41, e50, e51⟩ := idx_facts t
  unfold iblk1
  rw [View.read_apply]
  show V c main_v20 _ = V c main_v20 _
  congr 1
  funext a
  apply Fin.ext
  match a with
  | ⟨0, _⟩ => show win1_2.index t (0 : Fin 2) * 128 + 1 * k.val = k.val; omega
  | ⟨1, _⟩ => show win1_2.index t (1 : Fin 2) * 128 + 1 * q.val = q.val; omega

/-- The first bias row's block at every point is the whole array. -/
theorem b2_blk_apply (c : Dev nD) (t : Fin cfg1.N) (k : Fin 1) (q : Fin 128) :
    (iblk1 V c 3 t : Vec Ideal S1x128 .f32) (ix2 k q) = (V c main_v23 : (⟨2, ![1, 128]⟩ : Shape).Idx → EReal) (ix2 k q) := by
  obtain ⟨e60, e61, e00, e01, e10, e11, e20, e21, e30, e31, e40, e41, e50, e51⟩ := idx_facts t
  unfold iblk1
  rw [View.read_apply]
  show V c main_v23 _ = V c main_v23 _
  congr 1
  funext a
  apply Fin.ext
  match a with
  | ⟨0, _⟩ => show win1_3.index t (0 : Fin 2) * 1 + 1 * k.val = k.val; omega
  | ⟨1, _⟩ => show win1_3.index t (1 : Fin 2) * 128 + 1 * q.val = q.val; omega

/-- The second weight's block at every point is the whole array. -/
theorem w3_blk_apply (c : Dev nD) (t : Fin cfg1.N) (k : Fin 64) (q : Fin 128) :
    (iblk1 V c 4 t : Vec Ideal S64x128 .f32) (ix2 k q) = (V c main_v32 : (⟨2, ![64, 128]⟩ : Shape).Idx → EReal) (ix2 k q) := by
  obtain ⟨e60, e61, e00, e01, e10, e11, e20, e21, e30, e31, e40, e41, e50, e51⟩ := idx_facts t
  unfold iblk1
  rw [View.read_apply]
  show V c main_v32 _ = V c main_v32 _
  congr 1
  funext a
  apply Fin.ext
  match a with
  | ⟨0, _⟩ => show win1_4.index t (0 : Fin 2) * 64 + 1 * k.val = k.val; omega
  | ⟨1, _⟩ => show win1_4.index t (1 : Fin 2) * 128 + 1 * q.val = q.val; omega

/-- The second bias row's block at every point is the whole array. -/
theorem b3_blk_apply (c : Dev nD) (t : Fin cfg1.N) (k : Fin 1) (q : Fin 128) :
    (iblk1 V c 5 t : Vec Ideal S1x128 .f32) (ix2 k q) = (V c main_v35 : (⟨2, ![1, 128]⟩ : Shape).Idx → EReal) (ix2 k q) := by
  obtain ⟨e60, e61, e00, e01, e10, e11, e20, e21, e30, e31, e40, e41, e50, e51⟩ := idx_facts t
  unfold iblk1
  rw [View.read_apply]
  show V c main_v35 _ = V c main_v35 _
  congr 1
  funext a
  apply Fin.ext
  match a with
  | ⟨0, _⟩ => show win1_5.index t (0 : Fin 2) * 1 + 1 * k.val = k.val; omega
  | ⟨1, _⟩ => show win1_5.index t (1 : Fin 2) * 128 + 1 * q.val = q.val; omega

/-- What point `t` writes back is block `t` of the fused function of the arrays as the region finds them. -/
theorem flushed_eq (c : Dev nD) (t : Fin cfg1.N) :
    (dat1 (F := Ideal) V c).flushed 6 t
      = ((cfg1.win 6).blk t).view.read (Elt Ideal)
          (Cert.KSpec.fused (V c main_v45) (V c main_arg1) (V c main_v20) (V c main_v23) (V c main_v32) (V c main_v35)) := by
  show (cfg1.win 6).cut (grid1.coords t) ((dat1 V c).after 6 t) = _
  rw [after1_6]
  unfold out1_6
  rw [View.canon_unit_zero off_zero]
  simp only [View.ld_unit_zero (S := S5000x128) off_zero, View.ld_unit_zero (S := S128x128) off_zero,
    View.ld_unit_zero (S := S1x128) off_zero, View.ld_unit_zero (S := S5000x64) off_zero, View.ld_unit_zero (S := S64x128) off_zero]
  obtain ⟨e60, e61, e00, e01, e10, e11, e20, e21, e30, e31, e40, e41, e50, e51⟩ := idx_facts t
  have hN : cfg1.N = 160 := N_1
  have ht : t.val < 160 := hN ▸ t.isLt
  funext j
  obtain ⟨p, q, rfl⟩ : ∃ (p : Fin 5000) (q : Fin 128), j = ix2 p q := ⟨j 0, j 1, eq_ix2 j⟩
  rw [View.read_apply]
  show k1_pay1 (F := Ideal) (iblk1 V c 0 t) (iblk1 V c 2 t) (iblk1 V c 3 t) (iblk1 V c 1 t) (iblk1 V c 4 t) (iblk1 V c 5 t) (ix2 p q) = _
  refine (pay_apply _ _ _ _ _ _ p q).trans ?_
  have hp : p.val < 5000 := p.isLt
  refine (Eq.trans ?_ (fused_apply _ _ _ _ _ _ _ (⟨t.val * 5000 + p.val, by omega⟩ : Fin 800000) q ?_ ?_).symm)
  · refine congrArg₂ (· * ·) (congrArg₂ (· + ·) (Finset.sum_congr rfl fun k _ => ?_) ?_)
      (congrArg₂ (· + ·) (Finset.sum_congr rfl fun k _ => ?_) ?_)
    · rw [nbr_blk_apply V c t p k (⟨t.val * 5000 + p.val, by omega⟩ : Fin 800000) rfl, w2_blk_apply V c t k q]
    · exact b2_blk_apply V c t 0 q
    · rw [bond_blk_apply V c t p k (⟨t.val * 5000 + p.val, by omega⟩ : Fin 800000) rfl, w3_blk_apply V c t k q]
    · exact b3_blk_apply V c t 0 q
  · show win1_6.index t (0 : Fin 2) * 5000 + 1 * p.val = t.val * 5000 + p.val
    omega
  · show win1_6.index t (1 : Fin 2) * 128 + 1 * q.val = q.val
    omega

/-! ## The blocks tile the array -/

/-- An index of the array is in point `t`'s block iff each coordinate is in the block's range on its axis. -/
theorem mem_blk (t : Fin cfg1.N) (i : S800000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v46).slice (win1_6.rect t)).set ↔ _
  rw [View.set_slice_whole, Rect.mem_set_unit]
  exact Iff.rfl

/-- Row `r` of the array lies in the block of point `r / 5000`: the 160 blocks of 5000 rows tile the 800000 rows. -/
theorem cover (i : S800000x128.Idx) :
    ∃ t : Fin cfg1.N, (cfg1.win 6).flush t = true ∧ i ∈ ((cfg1.win 6).blk t).view.set := by
  have hN : cfg1.N = 160 := N_1
  have hi0 : (i 0).val < 800000 := idx2_lt0 i
  have hi1 : (i 1).val < 128 := idx2_lt1 i
  let t : Fin cfg1.N := ⟨(i 0).val / 5000, by rw [hN]; omega⟩
  obtain ⟨e60, e61, -⟩ := idx_facts t
  have e60' : win1_6.index t (0 : Fin 2) = (i 0).val / 5000 := e60
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-! ## The array after all grid points -/

/-- After the 160 grid points the output array holds the entrywise product of the two dense layers of the arrays the
    region was entered with. -/
theorem arrAt_eq (c : Dev nD) :
    (dat1 (F := Ideal) V c).arrAt 6 cfg1.N
      = Cert.KSpec.fused (V c main_v45) (V c main_arg1) (V c main_v20) (V c main_v23) (V c main_v32) (V c main_v35) :=
  (dat1 (F := Ideal) V c).arrAt_eq_of_cover 6 _ (fun t _ => flushed_eq V c t) cover

end Blocks

end Cert.KReg1
end
-- ==== Proof.KDefs.lean ====
/-
  The kernel program's host-side functions.

  Before the first region the host folds each layer's batch normalisation into its weights and bias: with
  `s = γ·(v + ε)^(−1/2)` the folded weights are `W·s` (column `q` scaled by `s q`) and the folded bias is the one-row array
  `b·s + (β − μ·s)`. Between the regions it gathers rows of the first region's output by the bond list's second column
  (negative indices wrapped by the row count); after the second region it adds the second region's rows into the rows the
  bond list's first column names, and adds the first region's output.
-/
import proofs.«174036_j61314953118453_1_alg».proof.Proof.Gen.KernelIdeal

noncomputable section

namespace Cert.KHost

open Idealize.ShloMosaic Idealize.SL.Sem
open Cert.KernelIdeal Cert.KernelIdeal.Facts₀ Cert.KernelIdeal.Facts

variable {F : FTy → Type} [FloatOps F]

/-! ## The host functions -/

/-- The normalisation's scale per output column: `γ · (v + ε)^(−1/2)`. -/
def scale (g v : FVec F S128 .f32) : FVec F S128 .f32 :=
  mulf g (Host.rsqrt (addf v (broadcastInDim S128 ![] bcast_S_S128 (constant S_ .f32 0x3A83126F#32))))

/-- Folded weights of a layer with 128 inputs: column `q` of `W` times `s q`. -/
def wfold (W : FVec F S128x128 .f32) (s : FVec F S128 .f32) : FVec F S128x128 .f32 :=
  mulf W (broadcastInDim S128x128 ![0, 1] bcast_S1x128_S128x128_0_1 (broadcastInDim S1x128 ![1] bcast_S128_S1x128_1 s))

/-- Folded weights of the layer with 64 inputs. -/
def wfold64 (W : FVec F S64x128 .f32) (s : FVec F S128 .f32) : FVec F S64x128 .f32 :=
  mulf W (broadcastInDim S64x128 ![0, 1] bcast_S1x128_S64x128_0_1 (broadcastInDim S1x128 ![1] bcast_S128_S1x128_1 s))

/-- Folded bias, as a one-row array: `b·s + (β − μ·s)`. -/
def bfold (b be mm s : FVec F S128 .f32) : FVec F S1x128 .f32 :=
  shapeCast S1x128 (addf (mulf b s) (subf be (mulf mm s))) shapeCasts_S128_S1x128

/-- Column `j` of the bond list, as a vector. -/
def bondCol1 (p : IVec S800000x2 32) : IVec S800000 32 :=
  shapeCast S800000 (extractStridedSlice S800000x1 ![0, 1] p slices_S800000x2_S800000x1_0_1) shapeCasts_S800000x1_S800000

/-- The gather's start indices: the bond list's second column, a negative entry wrapped by the row count 100000. -/
def nbrIdx (p : IVec S800000x2 32) : IVec S800000x1 32 :=
  broadcastInDim S800000x1 ![0] bcast_S800000_S800000x1_0
    (select (cmpi CmpIPredicate.slt (bondCol1 p) (broadcastInDim S800000 ![] bcast_S_S800000 (constantI S_ 32 0#32)))
      (addi (bondCol1 p) (broadcastInDim S800000 ![] bcast_S_S800000 (constantI S_ 32 100000#32)))
      (bondCol1 p))

/-- The scatter's indices: the bond list's first column. -/
def dstIdx (p : IVec S800000x2 32) : IVec S800000x1 32 :=
  broadcastInDim S800000x1 ![0] bcast_S800000_S800000x1_0
    (shapeCast S800000 (extractStridedSlice S800000x1 ![0, 0] p slices_S800000x2_S800000x1_0_0) shapeCasts_S800000x1_S800000)

/-- The gathered rows. -/
def nbrRows (H : FVec F S100000x128 .f32) (p : IVec S800000x2 32) : FVec F S800000x128 .f32 :=
  Host.gather gather_S100000x128_S800000x1_S800000x128_1_0_n_n_0_1_1128 H (nbrIdx p)

/-- The program's tail: the rows `C` added into the rows `dstIdx p` names of a zero array, plus `H`. -/
def tail (H : FVec F S100000x128 .f32) (p : IVec S800000x2 32) (C : FVec F S800000x128 .f32) : FVec F S100000x128 .f32 :=
  addf H (Host.scatterAdd scatter_S100000x128_S800000x1_S800000x128_1_0_0_1
    (broadcastInDim S100000x128 ![] bcast_S_S100000x128 (constant S_ .f32 0x00000000#32)) (dstIdx p) C)

end Cert.KHost

end
-- ==== Proof.KHost.lean ====
/-
  The kernel program's host operations, read back: what each buffer the regions and the tail read holds at a boundary of the
  run, as the host-side functions of the launch memory.
-/
import proofs.«174036_j61314953118453_1_alg».proof.Proof.Gen.KernelIdeal.Frame
import proofs.«174036_j61314953118453_1_alg».proof.Proof.KDefs
import Idealize.ShloMosaic.Lib.StableHlo.Run

set_option maxRecDepth 16384

noncomputable section

namespace Cert.KHost

open Idealize.ShloMosaic Idealize.ShloMosaic.TcCoe Idealize.SL.Sem Idealize.ShloMosaic.StableHlo
open Cert.KernelIdeal Cert.KernelIdeal.Gen

variable {F : FTy → Type} [FloatOps F]

variable (m : (ℓ : Loc nD τ sig) → Buf (Elt F) ℓ) (ρ : Dev nD → PrngReg)

/-! ## Before the first region -/

theorem W1_arg0 (c : Dev nD) : W1 m ρ c (Proc.devRef .tc main_arg0) = m ((c : Thread nD τ).loc main_arg0) := by
  dsimp only [W1, hostOps0]; after_results_simp
theorem W1_arg1 (c : Dev nD) : W1 m ρ c (Proc.devRef .tc main_arg1) = m ((c : Thread nD τ).loc main_arg1) := by
  dsimp only [W1, hostOps0]; after_results_simp
theorem W1_arg2 (c : Dev nD) : W1 m ρ c (Proc.devRef .tc main_arg2) = m ((c : Thread nD τ).loc main_arg2) := by
  dsimp only [W1, hostOps0]; after_results_simp

/-- Layer 1's folded weights. -/
theorem W1_v8 (c : Dev nD) : (W1 m ρ c (Proc.devRef .tc main_v8) : FVec F S128x128 .f32)
    = wfold (m ((c : Thread nD τ).loc main_arg3)) (scale (m ((c : Thread nD τ).loc main_arg5)) (m ((c : Thread nD τ).loc main_arg8))) := by
  dsimp only [W1, hostOps0]; after_results_simp; rfl
/-- Layer 1's folded bias. -/
theorem W1_v11 (c : Dev nD) : (W1 m ρ c (Proc.devRef .tc main_v11) : FVec F S1x128 .f32)
    = bfold (m ((c : Thread nD τ).loc main_arg4)) (m ((c : Thread nD τ).loc main_arg6)) (m ((c : Thread nD τ).loc main_arg7))
        (scale (m ((c : Thread nD τ).loc main_arg5)) (m ((c : Thread nD τ).loc main_arg8))) := by
  dsimp only [W1, hostOps0]; after_results_simp; rfl
/-- Layer 2's folded weights. -/
theorem W1_v20 (c : Dev nD) : (W1 m ρ c (Proc.devRef .tc main_v20) : FVec F S128x128 .f32)
    = wfold (m ((c : Thread nD τ).loc main_arg9)) (scale (m ((c : Thread nD τ).loc main_arg11)) (m ((c : Thread nD τ).loc main_arg14))) := by
  dsimp only [W1, hostOps0]; after_results_simp; rfl
/-- Layer 2's folded bias. -/
theorem W1_v23 (c : Dev nD) : (W1 m ρ c (Proc.devRef .tc main_v23) : FVec F S1x128 .f32)
    = bfold (m ((c : Thread nD τ).loc main_arg10)) (m ((c : Thread nD τ).loc main_arg12)) (m ((c : Thread nD τ).loc main_arg13))
        (scale (m ((c : Thread nD τ).loc main_arg11)) (m ((c : Thread nD τ).loc main_arg14))) := by
  dsimp only [W1, hostOps0]; after_results_simp; rfl
/-- Layer 3's folded weights. -/
theorem W1_v32 (c : Dev nD) : (W1 m ρ c (Proc.devRef .tc main_v32) : FVec F S64x128 .f32)
    = wfold64 (m ((c : Thread nD τ).loc main_arg15)) (scale (m ((c : Thread nD τ).loc main_arg17)) (m ((c : Thread nD τ).loc main_arg20))) := by
  dsimp only [W1, hostOps0]; after_results_simp; rfl
/-- Layer 3's folded bias. -/
theorem W1_v35 (c : Dev nD) : (W1 m ρ c (Proc.devRef .tc main_v35) : FVec F S1x128 .f32)
    = bfold (m ((c : Thread nD τ).loc main_arg16)) (m ((c : Thread nD τ).loc main_arg18)) (m ((c : Thread nD τ).loc main_arg19))
        (scale (m ((c : Thread nD τ).loc main_arg17)) (m ((c : Thread nD τ).loc main_arg20))) := by
  dsimp only [W1, hostOps0]; after_results_simp; rfl

/-! ## Between the regions: the first region wrote only its output array -/

theorem W3_arg1 (c : Dev nD) : W3 m ρ c (Proc.devRef .tc main_arg1) = m ((c : Thread nD τ).loc main_arg1) := by
  dsimp only [W3, hostOps1]; after_results_simp
  exact (W2_of_ne m ρ c main_arg1 (by decide)).trans (W1_arg1 m ρ c)
theorem W3_arg2 (c : Dev nD) : W3 m ρ c (Proc.devRef .tc main_arg2) = m ((c : Thread nD τ).loc main_arg2) := by
  dsimp only [W3, hostOps1]; after_results_simp
  exact (W2_of_ne m ρ c main_arg2 (by decide)).trans (W1_arg2 m ρ c)
theorem W3_v20 (c : Dev nD) : W3 m ρ c (Proc.devRef .tc main_v20) = W1 m ρ c (Proc.devRef .tc main_v20) := by
  dsimp only [W3, hostOps1]; after_results_simp
  exact W2_of_ne m ρ c main_v20 (by decide)
theorem W3_v23 (c : Dev nD) : W3 m ρ c (Proc.devRef .tc main_v23) = W1 m ρ c (Proc.devRef .tc main_v23) := by
  dsimp only [W3, hostOps1]; after_results_simp
  exact W2_of_ne m ρ c main_v23 (by decide)
theorem W3_v32 (c : Dev nD) : W3 m ρ c (Proc.devRef .tc main_v32) = W1 m ρ c (Proc.devRef .tc main_v32) := by
  dsimp only [W3, hostOps1]; after_results_simp
  exact W2_of_ne m ρ c main_v32 (by decide)
theorem W3_v35 (c : Dev nD) : W3 m ρ c (Proc.devRef .tc main_v35) = W1 m ρ c (Proc.devRef .tc main_v35) := by
  dsimp only [W3, hostOps1]; after_results_simp
  exact W2_of_ne m ρ c main_v35 (by decide)
theorem W3_v36 (c : Dev nD) : W3 m ρ c (Proc.devRef .tc main_v36) = (dat0 (V1 m ρ) c).arrAt 3 cfg0.N := by
  dsimp only [W3, hostOps1]; after_results_simp
  exact W2_arr m ρ c 3

/-- The second region's first operand: rows of the first region's output, gathered by the bond list. -/
theorem W3_v45 (c : Dev nD) : (W3 m ρ c (Proc.devRef .tc main_v45) : FVec F S800000x128 .f32)
    = nbrRows ((dat0 (V1 m ρ) c).arrAt 3 cfg0.N) (m ((c : Thread nD τ).loc main_arg2)) := by
  have h2 : W2 m ρ c (Proc.devRef .tc main_arg2) = m ((c : Thread nD τ).loc main_arg2) :=
    (W2_of_ne m ρ c main_arg2 (by decide)).trans (W1_arg2 m ρ c)
  have h36 : W2 m ρ c (Proc.devRef .tc main_v36) = (dat0 (V1 m ρ) c).arrAt 3 cfg0.N := W2_arr m ρ c 3
  dsimp only [W3, hostOps1]; after_results_simp
  rw [h2, h36]; rfl

/-! ## After the second region -/

/-- The result array at the end of the run. -/
theorem W5_v52 (c : Dev nD) : (W5 m ρ c (Proc.devRef .tc main_v52) : FVec F S100000x128 .f32)
    = tail ((dat0 (V1 m ρ) c).arrAt 3 cfg0.N) (m ((c : Thread nD τ).loc main_arg2)) ((dat1 (V3 m ρ) c).arrAt 6 cfg1.N) := by
  have h36 : W4 m ρ c (Proc.devRef .tc main_v36) = (dat0 (V1 m ρ) c).arrAt 3 cfg0.N :=
    (W4_of_ne m ρ c main_v36 (by decide)).trans (W3_v36 m ρ c)
  have h2 : W4 m ρ c (Proc.devRef .tc main_arg2) = m ((c : Thread nD τ).loc main_arg2) :=
    (W4_of_ne m ρ c main_arg2 (by decide)).trans (W3_arg2 m ρ c)
  have h46 : W4 m ρ c (Proc.devRef .tc main_v46) = (dat1 (V3 m ρ) c).arrAt 6 cfg1.N := W4_arr m ρ c 6
  dsimp only [W5, hostOps2]; after_results_simp
  rw [h36, h2, h46]; rfl

end Cert.KHost

end
-- ==== Proof.KValue.lean ====
/-
  The kernel program's result array as ONE function of its arguments.

  The first region's output is the dense layer of the atoms' rows on layer 1's folded weights and bias; the gathered rows of
  that output and the bonds' rows go through the second region, the entrywise product of the dense layers on layer 2's and
  layer 3's folded weights and biases; the tail adds those rows into the rows the bond list names and adds the first
  region's output. Each buffer the regions read holds, at the region's entry, the host function of the launch memory that
  the boundary readings give.
-/
import proofs.«174036_j61314953118453_1_alg».proof.Proof.KHost
import proofs.«174036_j61314953118453_1_alg».proof.Proof.KSpec

set_option maxRecDepth 16384

noncomputable section

namespace Cert.KValue

open Idealize.ShloMosaic Idealize.ShloMosaic.TcCoe Idealize.SL.Sem Idealize.ShloMosaic.StableHlo
open Cert.KernelIdeal Cert.KernelIdeal.Gen Cert.KHost

/-- The first region's output: the dense layer on layer 1's folded parameters. -/
def hid (a0 : FVec Ideal S100000x128 .f32) (a3 : FVec Ideal S128x128 .f32) (a4 a5 a6 a7 a8 : FVec Ideal S128 .f32) :
    FVec Ideal S100000x128 .f32 :=
  Cert.KSpec.dense (M := 100000) (K := 128) a0 (wfold a3 (scale a5 a8)) (bfold a4 a6 a7 (scale a5 a8))

/-- The second region's output from the gathered rows `n` and the bonds' rows `a1`. -/
def comb (n : FVec Ideal S800000x128 .f32) (a1 : FVec Ideal S800000x64 .f32) (a9 : FVec Ideal S128x128 .f32)
    (a10 a11 a12 a13 a14 : FVec Ideal S128 .f32) (a15 : FVec Ideal S64x128 .f32) (a16 a17 a18 a19 a20 : FVec Ideal S128 .f32) :
    FVec Ideal S800000x128 .f32 :=
  Cert.KSpec.fused n a1 (wfold a9 (scale a11 a14)) (bfold a10 a12 a13 (scale a11 a14))
    (wfold64 a15 (scale a17 a20)) (bfold a16 a18 a19 (scale a17 a20))

/-- The program's result. -/
def out (a0 : FVec Ideal S100000x128 .f32) (a1 : FVec Ideal S800000x64 .f32) (a2 : IVec S800000x2 32)
    (a3 : FVec Ideal S128x128 .f32) (a4 a5 a6 a7 a8 : FVec Ideal S128 .f32) (a9 : FVec Ideal S128x128 .f32)
    (a10 a11 a12 a13 a14 : FVec Ideal S128 .f32) (a15 : FVec Ideal S64x128 .f32) (a16 a17 a18 a19 a20 : FVec Ideal S128 .f32) :
    FVec Ideal S100000x128 .f32 :=
  tail (hid a0 a3 a4 a5 a6 a7 a8) a2
    (comb (nbrRows (hid a0 a3 a4 a5 a6 a7 a8) a2) a1 a9 a10 a11 a12 a13 a14 a15 a16 a17 a18 a19 a20)

variable (m : (ℓ : Loc nD τ sig) → Buf (Elt Ideal) ℓ) (ρ : Dev nD → PrngReg)

/-- The result array at the end of the run is `out` of the launch arguments, given what each region's output array holds
    after its last grid point as a function of the arrays the region is entered with. -/
theorem result
    (h0 : ∀ (V : (c : Dev nD) → (b : Ref sig .tc) → Buf (Elt Ideal) ((c : Thread nD τ).loc b)) (c : Dev nD),
      (dat0 (F := Ideal) V c).arrAt 3 cfg0.N
        = Cert.KSpec.dense (M := 100000) (K := 128) (V c main_arg0) (V c main_v8) (V c main_v11))
    (h1 : ∀ (V : (c : Dev nD) → (b : Ref sig .tc) → Buf (Elt Ideal) ((c : Thread nD τ).loc b)) (c : Dev nD),
      (dat1 (F := Ideal) V c).arrAt 6 cfg1.N
        = Cert.KSpec.fused (V c main_v45) (V c main_arg1) (V c main_v20) (V c main_v23) (V c main_v32) (V c main_v35))
    (c : Dev nD) :
    (W5 m ρ c (Proc.devRef .tc main_v52) : FVec Ideal S100000x128 .f32)
      = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  have hH : (dat0 (F := Ideal) (V1 m ρ) c).arrAt 3 cfg0.N
      = hid (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
    rw [h0 (V1 m ρ) c]
    show Cert.KSpec.dense (M := 100000) (K := 128) (W1 m ρ c (Proc.devRef .tc main_arg0)) (W1 m ρ c (Proc.devRef .tc main_v8))
        (W1 m ρ c (Proc.devRef .tc main_v11)) = _
    rw [W1_arg0, W1_v8, W1_v11]; rfl
  have hC : (dat1 (F := Ideal) (V3 m ρ) c).arrAt 6 cfg1.N
      = comb (nbrRows (hid (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg2)))
          (m ((c : Thread nD τ).loc main_arg1)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
    rw [h1 (V3 m ρ) c]
    show Cert.KSpec.fused (W3 m ρ c (Proc.devRef .tc main_v45)) (W3 m ρ c (Proc.devRef .tc main_arg1))
        (W3 m ρ c (Proc.devRef .tc main_v20)) (W3 m ρ c (Proc.devRef .tc main_v23)) (W3 m ρ c (Proc.devRef .tc main_v32))
        (W3 m ρ c (Proc.devRef .tc main_v35)) = _
    rw [W3_v45, W3_arg1, W3_v20, W3_v23, W3_v32, W3_v35, W1_v20, W1_v23, W1_v32, W1_v35, hH]; rfl
  rw [W5_v52, hH, hC]; rfl

end Cert.KValue

end
-- ==== Proof.LibCoe.lean ====
/-
  The extended-real operations of the ideal float instance, read on COERCED REALS.

  Every value of the ideal instance is an extended real. Where an argument is (the coercion of) a real number
  and stays away from an operation's corner (a zero divisor, a non-positive argument of the logarithm or of
  the reciprocal square root), the result is again the coercion of a real: the real operation's value. Each
  lemma below is such an equation, its right side a coerced real, so that a value claim over finite inputs can
  be pushed, operation by operation, from the extended reals down to a statement about real numbers.

  The bit patterns that denote the constants are unfolded here, once.
-/
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Sqrt
import Mathlib.Analysis.SpecialFunctions.Log.Basic
import Mathlib.Tactic.NormNum

noncomputable section

namespace Cert.LibCoe

open Idealize.ShloMosaic
open Finset BigOperators

/-! ### Field operations -/

/-- The sum of two coerced reals is the coercion of their sum. -/
theorem add_coe (a b : ℝ) : (a : EReal) + (b : EReal) = ((a + b : ℝ) : EReal) :=
  (EReal.coe_add a b).symm

/-- The difference of two coerced reals is the coercion of their difference. -/
theorem sub_coe (a b : ℝ) : (a : EReal) - (b : EReal) = ((a - b : ℝ) : EReal) :=
  (EReal.coe_sub a b).symm

/-- The product of two coerced reals is the coercion of their product. -/
theorem mul_coe (a b : ℝ) : (a : EReal) * (b : EReal) = ((a * b : ℝ) : EReal) :=
  (EReal.coe_mul a b).symm

/-- The negation of a coerced real is the coercion of its negation. -/
theorem neg_coe (a : ℝ) : -(a : EReal) = ((-a : ℝ) : EReal) :=
  (EReal.coe_neg a).symm

/-- Division of a coerced real by a coerced NON-ZERO real is the coercion of the real quotient: off zero the
    ideal division is the product with the inverse, and the inverse of a coerced real is the coerced inverse. -/
theorem div_coe_coe (a : ℝ) {b : ℝ} (hb : b ≠ 0) :
    Ideal.div (a : EReal) (b : EReal) = ((a / b : ℝ) : EReal) := by
  rw [Ideal.div_coe hb, ← EReal.coe_mul, mul_one_div]

/-- The maximum of two coerced reals is the coercion of their maximum (the coercion is monotone). -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The minimum of two coerced reals is the coercion of their minimum. -/
theorem min_coe (a b : ℝ) : min (a : EReal) (b : EReal) = ((min a b : ℝ) : EReal) := by
  rcases le_total a b with h | h
  · rw [min_eq_left h, min_eq_left (EReal.coe_le_coe_iff.mpr h)]
  · rw [min_eq_right h, min_eq_right (EReal.coe_le_coe_iff.mpr h)]

/-- A finite sum of coerced reals is the coercion of the real sum. -/
theorem sum_coe {ι : Type*} (s : Finset ι) (f : ι → ℝ) :
    ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-! ### Transcendental operations -/

/-- The reciprocal square root of a coerced POSITIVE real is the coerced `(√r)⁻¹`. -/
theorem rsqrt_coe_pos {r : ℝ} (hr : 0 < r) :
    Ideal.rsqrt (r : EReal) = (((Real.sqrt r)⁻¹ : ℝ) : EReal) := by
  rw [Ideal.rsqrt_coe, if_neg (not_lt.mpr hr.le), if_neg hr.ne']

/-- The exponential of a coerced real is the coerced real exponential. -/
theorem exp_coe (r : ℝ) : Ideal.exp (r : EReal) = ((Real.exp r : ℝ) : EReal) := rfl

/-- The logarithm of a coerced POSITIVE real is the coerced real logarithm. -/
theorem log_coe_pos {r : ℝ} (hr : 0 < r) :
    Ideal.log (r : EReal) = ((Real.log r : ℝ) : EReal) := by
  rw [Ideal.log_coe, if_neg (not_le.mpr hr)]

/-! ### Comparison -/

/-- The ordered comparison "greater than" of two coerced reals is the bit of the real comparison. -/
theorem cmp_ogt_coe (a b : ℝ) :
    Ideal.cmp .ogt (a : EReal) (b : EReal) = BitVec.ofBool (decide (b < a)) := by
  simp only [Ideal.cmp, EReal.coe_lt_coe_iff]

/-- A coerced positive real is "greater than" the coerced zero: the comparison's bit is set. -/
theorem cmp_ogt_coe_zero_of_pos {a : ℝ} (ha : 0 < a) :
    Ideal.cmp .ogt (a : EReal) ((0 : ℝ) : EReal) = 1#1 := by
  rw [cmp_ogt_coe, decide_eq_true ha]; rfl

/-- A coerced non-positive real is not "greater than" the coerced zero: the comparison's bit is clear. -/
theorem cmp_ogt_coe_zero_of_nonpos {a : ℝ} (ha : a ≤ 0) :
    Ideal.cmp .ogt (a : EReal) ((0 : ℝ) : EReal) = 0#1 := by
  rw [cmp_ogt_coe, decide_eq_false (not_lt.mpr ha)]; rfl

/-! ### Constants: what the single-precision patterns denote -/

/-- The pattern of `+0.0` denotes the real `0`. -/
theorem ofBits_zero : Ideal.ofBits .f32 0x00000000#32 = ((0 : ℝ) : EReal) := by
  rw [Ideal.ofBits_zero_f32, EReal.coe_zero]

/-- The pattern of `1.0` (exponent field 127, fraction 0) denotes the real `1`. -/
theorem ofBits_one : Ideal.ofBits .f32 0x3F800000#32 = ((1 : ℝ) : EReal) := by
  simp [Ideal.ofBits, Ideal.ieee, -EReal.coe_mul]; norm_num

/-- The pattern of `10000.0` (exponent field 140, fraction `0x1C4000`): `(2²³ + 1851392) · 2⁻¹⁰ = 10000`. -/
theorem ofBits_10000 : Ideal.ofBits .f32 0x461C4000#32 = ((10000 : ℝ) : EReal) := by
  simp [Ideal.ofBits, Ideal.ieee, -EReal.coe_mul]; norm_num

/-- The single-precision number nearest `10⁻⁵`, exactly: exponent field 110, fraction `0x27C5AC`, that is
    `(2²³ + 2606508) · 2⁻⁴⁰ = 10995116 / 2⁴⁰`. -/
def epsR : ℝ := 10995116 / 1099511627776

/-- That number is positive. -/
theorem epsR_pos : 0 < epsR := by unfold epsR; norm_num

/-- The pattern `0x3727C5AC` denotes `epsR`. -/
theorem ofBits_eps : Ideal.ofBits .f32 0x3727C5AC#32 = ((epsR : ℝ) : EReal) := by
  unfold epsR
  simp [Ideal.ofBits, Ideal.ieee, -EReal.coe_mul]; norm_num

/-- The pattern of `-∞` (sign set, exponent field all ones, fraction 0) denotes `⊥`. -/
theorem ofBits_neg_inf : Ideal.ofBits .f32 0xFF800000#32 = (⊥ : EReal) := by
  simp [Ideal.ofBits, Ideal.ieee]

end Cert.LibCoe

end
-- ==== Proof.Law.lean ====
/-
  The algebra that joins the two programs, on real numbers and then on coerced reals.

  A dense layer followed by an inference-time batch normalisation is
      ((Σ_k a_k·w_k + b) − μ) · ρ · γ + β,      ρ = (v + ε)^(−1/2),
  and the kernel computes it with the normalisation folded into the weights and the bias:
      Σ_k a_k·(w_k·(γ·ρ)) + (b·(γ·ρ) + (β − μ·(γ·ρ))).
  Over the real numbers the two are equal by distributivity. On the extended reals distributivity fails at the
  infinities, so the law is stated for coerced reals only; that every quantity is one is what finiteness of the inputs and
  non-negativity of the variance give (with ε > 0 the reciprocal square root is then taken at a positive real).
-/
import proofs.«174036_j61314953118453_1_alg».proof.Proof.LibCoe
import Mathlib.Algebra.BigOperators.Ring.Finset
import Mathlib.Tactic.Ring

noncomputable section

namespace Cert.Law

open Idealize.ShloMosaic
open Finset BigOperators

/-! ### The constant ε -/

/-- The single-precision number nearest `10⁻³`, exactly: exponent field 117, fraction `0x03126F`, that is
    `(2²³ + 201327) · 2⁻³³ = 8589935 / 2³³`. -/
def epsR : ℝ := 8589935 / 8589934592

/-- That number is positive. -/
theorem epsR_pos : 0 < epsR := by unfold epsR; norm_num

/-- The pattern `0x3A83126F` denotes `epsR`. -/
theorem ofBits_eps : Ideal.ofBits .f32 0x3A83126F#32 = ((epsR : ℝ) : EReal) := by
  unfold epsR
  simp [Ideal.ofBits, Ideal.ieee, -EReal.coe_mul]; norm_num

/-- For a real variance `v ≥ 0` the reciprocal square root of `v + ε` is a real number: its argument is positive. -/
theorem rsqrt_var_real (v : EReal) (hv : ∃ r : ℝ, v = (r : EReal)) (hn : (0 : EReal) ≤ v) :
    ∃ r : ℝ, Ideal.rsqrt (v + Ideal.ofBits .f32 0x3A83126F#32) = (r : EReal) := by
  obtain ⟨v', rfl⟩ := hv
  have hv' : 0 ≤ v' := by exact_mod_cast hn
  refine ⟨(Real.sqrt (v' + epsR))⁻¹, ?_⟩
  rw [ofBits_eps, Cert.LibCoe.add_coe, Cert.LibCoe.rsqrt_coe_pos (add_pos_of_nonneg_of_pos hv' epsR_pos)]

/-! ### The folded layer is the layer -/

/-- Over the reals: the normalisation folded into weights and bias gives the normalised dense layer. -/
theorem layer_real {κ : Type*} [Fintype κ] (a w : κ → ℝ) (b g be mm r : ℝ) :
    (∑ k, a k * (w k * (g * r))) + (b * (g * r) + (be - mm * (g * r)))
      = ((∑ k, a k * w k + b) - mm) * r * g + be := by
  have h : ∑ k, a k * (w k * (g * r)) = (∑ k, a k * w k) * (g * r) := by
    rw [Finset.sum_mul]; exact Finset.sum_congr rfl fun k _ => by ring
  rw [h]; ring

/-- The same on coerced reals, in the extended reals. -/
theorem layer_coe {κ : Type*} [Fintype κ] (a w : κ → ℝ) (b g be mm r : ℝ) :
    (∑ k, (a k : EReal) * ((w k : EReal) * ((g : EReal) * (r : EReal))))
        + ((b : EReal) * ((g : EReal) * (r : EReal)) + ((be : EReal) - (mm : EReal) * ((g : EReal) * (r : EReal))))
      = ((∑ k, (a k : EReal) * (w k : EReal) + (b : EReal)) - (mm : EReal)) * (r : EReal) * (g : EReal) + (be : EReal) := by
  simp only [Cert.LibCoe.mul_coe, Cert.LibCoe.sum_coe, Cert.LibCoe.add_coe, Cert.LibCoe.sub_coe]
  rw [layer_real]

/-- The law at extended-real entries that ARE real numbers: a row `xs` of the input, a column `ws` of the weights, the bias
    `b`, scale `g`, shift `be`, mean `mm` and a non-negative variance `v`. -/
theorem layer_ext {κ : Type*} [Fintype κ] (xs ws : κ → EReal) (b g be mm v : EReal)
    (hx : ∀ k, ∃ r : ℝ, xs k = (r : EReal)) (hw : ∀ k, ∃ r : ℝ, ws k = (r : EReal))
    (hb : ∃ r : ℝ, b = (r : EReal)) (hg : ∃ r : ℝ, g = (r : EReal)) (hbe : ∃ r : ℝ, be = (r : EReal))
    (hmm : ∃ r : ℝ, mm = (r : EReal)) (hv : ∃ r : ℝ, v = (r : EReal)) (hn : (0 : EReal) ≤ v) :
    (∑ k, xs k * (ws k * (g * Ideal.rsqrt (v + Ideal.ofBits .f32 0x3A83126F#32))))
        + (b * (g * Ideal.rsqrt (v + Ideal.ofBits .f32 0x3A83126F#32))
            + (be - mm * (g * Ideal.rsqrt (v + Ideal.ofBits .f32 0x3A83126F#32))))
      = ((∑ k, xs k * ws k + b) - mm) * Ideal.rsqrt (v + Ideal.ofBits .f32 0x3A83126F#32) * g + be := by
  obtain ⟨ρ, hρ⟩ := rsqrt_var_real v hv hn
  choose a ha using hx
  choose w hw' using hw
  obtain ⟨b', rfl⟩ := hb
  obtain ⟨g', rfl⟩ := hg
  obtain ⟨be', rfl⟩ := hbe
  obtain ⟨mm', rfl⟩ := hmm
  rw [hρ]
  simp only [ha, hw']
  exact layer_coe a w b' g' be' mm' ρ

/-- The folded layer's value is a real number (so a later layer may take it as an input). -/
theorem layer_ext_real {κ : Type*} [Fintype κ] (xs ws : κ → EReal) (b g be mm v : EReal)
    (hx : ∀ k, ∃ r : ℝ, xs k = (r : EReal)) (hw : ∀ k, ∃ r : ℝ, ws k = (r : EReal))
    (hb : ∃ r : ℝ, b = (r : EReal)) (hg : ∃ r : ℝ, g = (r : EReal)) (hbe : ∃ r : ℝ, be = (r : EReal))
    (hmm : ∃ r : ℝ, mm = (r : EReal)) (hv : ∃ r : ℝ, v = (r : EReal)) (hn : (0 : EReal) ≤ v) :
    ∃ r : ℝ, (∑ k, xs k * (ws k * (g * Ideal.rsqrt (v + Ideal.ofBits .f32 0x3A83126F#32))))
        + (b * (g * Ideal.rsqrt (v + Ideal.ofBits .f32 0x3A83126F#32))
            + (be - mm * (g * Ideal.rsqrt (v + Ideal.ofBits .f32 0x3A83126F#32)))) = (r : EReal) := by
  obtain ⟨ρ, hρ⟩ := rsqrt_var_real v hv hn
  choose a ha using hx
  choose w hw' using hw
  obtain ⟨b', rfl⟩ := hb
  obtain ⟨g', rfl⟩ := hg
  obtain ⟨be', rfl⟩ := hbe
  obtain ⟨mm', rfl⟩ := hmm
  rw [hρ]
  simp only [ha, hw', Cert.LibCoe.mul_coe, Cert.LibCoe.sum_coe, Cert.LibCoe.add_coe, Cert.LibCoe.sub_coe]
  exact ⟨_, rfl⟩

end Cert.Law

end
-- ==== Proof.KAt.lean ====
/-
  The kernel's host-side functions read at an index, on the extended reals, and the folded dense layer as the normalised
  layer.

  At column `q` the scale is `γ q · (v q + ε)^(−1/2)`; entry `(k, q)` of the folded weights is `W (k, q)` times the scale at
  `q`; entry `(0, q)` of the folded bias is `b q · s q + (β q − μ q · s q)`. Substituted into the dense layer and rearranged by
  the layer law (all entries real, the variance non-negative), entry `(r, q)` of the folded layer is
  `((Σ_k x (r,k)·W (k,q) + b q) − μ q) · (v q + ε)^(−1/2) · γ q + β q`.
-/
import proofs.«174036_j61314953118453_1_alg».proof.Proof.KDefs
import proofs.«174036_j61314953118453_1_alg».proof.Proof.KSpec
import proofs.«174036_j61314953118453_1_alg».proof.Proof.Law
import Idealize.ShloMosaic.Lib.Pipeline.Value
import Idealize.ShloMosaic.Lib.ValueIdx

noncomputable section

namespace Cert.KHost

open Idealize.ShloMosaic Idealize.ShloMosaic.ValueIdx Idealize.SL.Sem
open Cert.KernelIdeal Cert.KernelIdeal.Facts₀ Cert.KernelIdeal.Facts Cert.KSpec
open Finset BigOperators

/-- The normalisation's scale at column `q`. -/
theorem scale_at (g v : FVec Ideal S128 .f32) (q : Fin 128) :
    scale g v (ix1 q) = g (ix1 q) * Ideal.rsqrt (v (ix1 q) + Ideal.ofBits .f32 0x3A83126F#32) := rfl

/-- A per-column vector broadcast to a row, then to `n` rows, read at `(k, q)`: its entry `q`. -/
theorem rowBcast128_at (s : FVec Ideal S128 .f32) (k q : Fin 128) :
    broadcastInDim S128x128 ![0, 1] bcast_S1x128_S128x128_0_1 (broadcastInDim S1x128 ![1] bcast_S128_S1x128_1 s) (ix2 k q)
      = s (ix1 q) := by
  refine (broadcastInDim_apply _ bcast_S1x128_S128x128_0_1 _ (ix2 k q) (ix2 (0 : Fin 1) q) (fun a => match a with
    | ⟨0, _⟩ => (if_pos rfl).symm
    | ⟨1, _⟩ => (if_neg (show ¬((128 : ℕ) = 1) by decide)).symm)).trans ?_
  exact broadcastInDim_apply _ bcast_S128_S1x128_1 s (ix2 (0 : Fin 1) q) (ix1 q) (fun a => match a with
    | ⟨0, _⟩ => (if_neg (show ¬((128 : ℕ) = 1) by decide)).symm)

theorem rowBcast64_at (s : FVec Ideal S128 .f32) (k : Fin 64) (q : Fin 128) :
    broadcastInDim S64x128 ![0, 1] bcast_S1x128_S64x128_0_1 (broadcastInDim S1x128 ![1] bcast_S128_S1x128_1 s) (ix2 k q)
      = s (ix1 q) := by
  refine (broadcastInDim_apply _ bcast_S1x128_S64x128_0_1 _ (ix2 k q) (ix2 (0 : Fin 1) q) (fun a => match a with
    | ⟨0, _⟩ => (if_pos rfl).symm
    | ⟨1, _⟩ => (if_neg (show ¬((128 : ℕ) = 1) by decide)).symm)).trans ?_
  exact broadcastInDim_apply _ bcast_S128_S1x128_1 s (ix2 (0 : Fin 1) q) (ix1 q) (fun a => match a with
    | ⟨0, _⟩ => (if_neg (show ¬((128 : ℕ) = 1) by decide)).symm)

/-- Entry `(k, q)` of the folded weights: `W (k, q)` times the scale at `q`. -/
theorem wfold_at (W : FVec Ideal S128x128 .f32) (s : FVec Ideal S128 .f32) (k q : Fin 128) :
    wfold W s (ix2 k q) = W (ix2 k q) * s (ix1 q) :=
  congrArg (W (ix2 k q) * ·) (rowBcast128_at s k q)

theorem wfold64_at (W : FVec Ideal S64x128 .f32) (s : FVec Ideal S128 .f32) (k : Fin 64) (q : Fin 128) :
    wfold64 W s (ix2 k q) = W (ix2 k q) * s (ix1 q) :=
  congrArg (W (ix2 k q) * ·) (rowBcast64_at s k q)

/-- Entry `(0, q)` of the folded bias. -/
theorem bfold_at (b be mm s : FVec Ideal S128 .f32) (q : Fin 128) :
    bfold b be mm s (ix2 (0 : Fin 1) q) = b (ix1 q) * s (ix1 q) + (be (ix1 q) - mm (ix1 q) * s (ix1 q)) := by
  unfold bfold
  refine (shapeCast_addUnit_apply ![128] _ shapeCasts_S128_S1x128 (ix2 (0 : Fin 1) q)).trans ?_
  have e : (fun a : Fin 1 => (ix2 (0 : Fin 1) q) a.succ) = ix1 q := funext fun a => match a with | ⟨0, _⟩ => rfl
  rw [e]; rfl

/-! ## The folded dense layer is the normalised dense layer -/

/-- Contraction length 128. Entry `(p, q)` of the dense layer on folded weights and bias, for an input row of real numbers
    and real parameters with a non-negative variance. -/
theorem dense_fold128 {M : Nat} (x : (⟨2, ![M, 128]⟩ : Shape).Idx → EReal) (W : FVec Ideal S128x128 .f32)
    (b g be mm v : FVec Ideal S128 .f32) (p : Fin M) (q : Fin 128)
    (hx : ∀ k, ∃ r : ℝ, x (ix2 p k) = (r : EReal)) (hW : ∀ i, ∃ r : ℝ, W i = (r : EReal))
    (hb : ∀ i, ∃ r : ℝ, b i = (r : EReal)) (hg : ∀ i, ∃ r : ℝ, g i = (r : EReal)) (hbe : ∀ i, ∃ r : ℝ, be i = (r : EReal))
    (hmm : ∀ i, ∃ r : ℝ, mm i = (r : EReal)) (hv : ∀ i, ∃ r : ℝ, v i = (r : EReal)) (hn : ∀ i, (0 : EReal) ≤ v i) :
    dense x (wfold W (scale g v)) (bfold b be mm (scale g v)) (ix2 p q)
      = ((∑ k : Fin 128, x (ix2 p k) * W (ix2 k q) + b (ix1 q)) - mm (ix1 q))
          * Ideal.rsqrt (v (ix1 q) + Ideal.ofBits .f32 0x3A83126F#32) * g (ix1 q) + be (ix1 q) := by
  show (∑ k : Fin 128, x (ix2 p k) * wfold W (scale g v) (ix2 k q)) + bfold b be mm (scale g v) (ix2 (0 : Fin 1) q) = _
  simp only [wfold_at, bfold_at, scale_at]
  exact Cert.Law.layer_ext (fun k => x (ix2 p k)) (fun k => W (ix2 k q)) (b (ix1 q)) (g (ix1 q)) (be (ix1 q)) (mm (ix1 q))
    (v (ix1 q)) hx (fun k => hW _) (hb _) (hg _) (hbe _) (hmm _) (hv _) (hn _)

/-- That entry is a real number. -/
theorem dense_fold128_real {M : Nat} (x : (⟨2, ![M, 128]⟩ : Shape).Idx → EReal) (W : FVec Ideal S128x128 .f32)
    (b g be mm v : FVec Ideal S128 .f32) (p : Fin M) (q : Fin 128)
    (hx : ∀ k, ∃ r : ℝ, x (ix2 p k) = (r : EReal)) (hW : ∀ i, ∃ r : ℝ, W i = (r : EReal))
    (hb : ∀ i, ∃ r : ℝ, b i = (r : EReal)) (hg : ∀ i, ∃ r : ℝ, g i = (r : EReal)) (hbe : ∀ i, ∃ r : ℝ, be i = (r : EReal))
    (hmm : ∀ i, ∃ r : ℝ, mm i = (r : EReal)) (hv : ∀ i, ∃ r : ℝ, v i = (r : EReal)) (hn : ∀ i, (0 : EReal) ≤ v i) :
    ∃ r : ℝ, dense x (wfold W (scale g v)) (bfold b be mm (scale g v)) (ix2 p q) = (r : EReal) := by
  show ∃ r : ℝ, (∑ k : Fin 128, x (ix2 p k) * wfold W (scale g v) (ix2 k q)) + bfold b be mm (scale g v) (ix2 (0 : Fin 1) q) = (r : EReal)
  simp only [wfold_at, bfold_at, scale_at]
  exact Cert.Law.layer_ext_real (fun k => x (ix2 p k)) (fun k => W (ix2 k q)) (b (ix1 q)) (g (ix1 q)) (be (ix1 q)) (mm (ix1 q))
    (v (ix1 q)) hx (fun k => hW _) (hb _) (hg _) (hbe _) (hmm _) (hv _) (hn _)

/-- Contraction length 64. -/
theorem dense_fold64 {M : Nat} (x : (⟨2, ![M, 64]⟩ : Shape).Idx → EReal) (W : FVec Ideal S64x128 .f32)
    (b g be mm v : FVec Ideal S128 .f32) (p : Fin M) (q : Fin 128)
    (hx : ∀ k, ∃ r : ℝ, x (ix2 p k) = (r : EReal)) (hW : ∀ i, ∃ r : ℝ, W i = (r : EReal))
    (hb : ∀ i, ∃ r : ℝ, b i = (r : EReal)) (hg : ∀ i, ∃ r : ℝ, g i = (r : EReal)) (hbe : ∀ i, ∃ r : ℝ, be i = (r : EReal))
    (hmm : ∀ i, ∃ r : ℝ, mm i = (r : EReal)) (hv : ∀ i, ∃ r : ℝ, v i = (r : EReal)) (hn : ∀ i, (0 : EReal) ≤ v i) :
    dense x (wfold64 W (scale g v)) (bfold b be mm (scale g v)) (ix2 p q)
      = ((∑ k : Fin 64, x (ix2 p k) * W (ix2 k q) + b (ix1 q)) - mm (ix1 q))
          * Ideal.rsqrt (v (ix1 q) + Ideal.ofBits .f32 0x3A83126F#32) * g (ix1 q) + be (ix1 q) := by
  show (∑ k : Fin 64, x (ix2 p k) * wfold64 W (scale g v) (ix2 k q)) + bfold b be mm (scale g v) (ix2 (0 : Fin 1) q) = _
  simp only [wfold64_at, bfold_at, scale_at]
  exact Cert.Law.layer_ext (fun k => x (ix2 p k)) (fun k => W (ix2 k q)) (b (ix1 q)) (g (ix1 q)) (be (ix1 q)) (mm (ix1 q))
    (v (ix1 q)) hx (fun k => hW _) (hb _) (hg _) (hbe _) (hmm _) (hv _) (hn _)

end Cert.KHost

end
-- ==== Proof.RefAt.lean ====
/-
  The reference's three normalised dense layers, read at an entry.

  Each layer is a matrix product, a bias added, the running mean subtracted, the product with `(v + ε)^(−1/2)` and with the
  scale, and the shift added, every per-column parameter broadcast down the rows. Entry `(p, q)` is therefore
  `((Σ_k x (p,k)·W (k,q) + b q) − μ q) · (v q + ε)^(−1/2) · γ q + β q`.
-/
import proofs.«174036_j61314953118453_1_alg».proof.Proof.Gen.ReferenceIdeal.Read
import Idealize.ShloMosaic.Lib.Pipeline.Value
import Idealize.ShloMosaic.Lib.ValueIdx

noncomputable section

namespace Cert.RefAt

open Idealize.ShloMosaic Idealize.ShloMosaic.ValueIdx Idealize.SL.Sem
open Cert.ReferenceIdeal Cert.ReferenceIdeal.Read
open Finset BigOperators

/-- A per-column vector broadcast to one row and then to `M` rows, read at `(p, q)`: its entry `q`. -/
theorem colBcast_at {M : Nat} (h1 : S128.BroadcastsInDim S1x128 (![1] : Fin 1 → Fin S1x128.rank))
    (h2 : S1x128.BroadcastsInDim (⟨2, ![M, 128]⟩ : Shape) (![0, 1] : Fin 2 → Fin 2))
    (s : S128.Idx → EReal) (p : Fin M) (q : Fin 128) :
    broadcastInDim (⟨2, ![M, 128]⟩ : Shape) ![0, 1] h2 (broadcastInDim S1x128 ![1] h1 s) (ix2 p q) = s (ix1 q) := by
  refine (broadcastInDim_apply _ h2 _ (ix2 p q) (ix2 (0 : Fin 1) q) (fun a => match a with
    | ⟨0, _⟩ => (if_pos rfl).symm
    | ⟨1, _⟩ => (if_neg (show ¬((128 : ℕ) = 1) by decide)).symm)).trans ?_
  exact broadcastInDim_apply _ h1 s (ix2 (0 : Fin 1) q) (ix1 q) (fun a => match a with
    | ⟨0, _⟩ => (if_neg (show ¬((128 : ℕ) = 1) by decide)).symm)

/-- The first layer (on the atoms' rows) at entry `(p, q)`. -/
theorem layer1_at (x0 : FVec Ideal S100000x128 .f32) (x3 : FVec Ideal S128x128 .f32) (x4 x5 x6 x7 x8 : FVec Ideal S128 .f32)
    (p : Fin 100000) (q : Fin 128) :
    val_main_v18 (F := Ideal) x0 x3 x4 x5 x6 x7 x8 (ix2 p q)
      = ((∑ k : Fin 128, x0 (ix2 p k) * x3 (ix2 k q) + x4 (ix1 q)) - x7 (ix1 q))
          * Ideal.rsqrt (x8 (ix1 q) + Ideal.ofBits .f32 0x3A83126F#32) * x5 (ix1 q) + x6 (ix1 q) := by
  have hdot : val_main_v0 (F := Ideal) x0 x3 (ix2 p q) = ∑ k : Fin 128, x0 (ix2 p k) * x3 (ix2 k q) := by
    rw [val_main_v0_apply]
    refine Finset.sum_congr rfl fun k _ => ?_
    have el : lidx_main_v0 (ix2 p q) k = ix2 p k := funext fun a => match a with | ⟨0, _⟩ => rfl | ⟨1, _⟩ => rfl
    have er : ridx_main_v0 (ix2 p q) k = ix2 k q := funext fun a => match a with | ⟨0, _⟩ => rfl | ⟨1, _⟩ => rfl
    rw [el, er]
  have h4 : val_main_v2 (F := Ideal) x4 (ix2 p q) = x4 (ix1 q) := colBcast_at _ _ x4 p q
  have h7 : val_main_v5 (F := Ideal) x7 (ix2 p q) = x7 (ix1 q) := colBcast_at _ _ x7 p q
  have h8 : val_main_v11 (F := Ideal) x8 (ix2 p q) = val_main_v9 (F := Ideal) x8 (ix1 q) := colBcast_at _ _ _ p q
  have h5 : val_main_v14 (F := Ideal) x5 (ix2 p q) = x5 (ix1 q) := colBcast_at _ _ x5 p q
  have h6 : val_main_v17 (F := Ideal) x6 (ix2 p q) = x6 (ix1 q) := colBcast_at _ _ x6 p q
  show (((val_main_v0 (F := Ideal) x0 x3 (ix2 p q) + val_main_v2 (F := Ideal) x4 (ix2 p q)) - val_main_v5 (F := Ideal) x7 (ix2 p q))
        * val_main_v11 (F := Ideal) x8 (ix2 p q)) * val_main_v14 (F := Ideal) x5 (ix2 p q) + val_main_v17 (F := Ideal) x6 (ix2 p q) = _
  rw [hdot, h4, h7, h8, h5, h6]
  rfl

/-- The second layer (on the gathered neighbour rows `n`) at entry `(p, q)`; `n` is the gather's result, kept as it is. -/
theorem layer2_at (x0 : FVec Ideal S100000x128 .f32) (x2 : IVec S800000x2 32) (x3 : FVec Ideal S128x128 .f32)
    (x4 x5 x6 x7 x8 : FVec Ideal S128 .f32) (x9 : FVec Ideal S128x128 .f32) (x10 x11 x12 x13 x14 : FVec Ideal S128 .f32)
    (p : Fin 800000) (q : Fin 128) :
    val_main_v46 (F := Ideal) x0 x2 x3 x4 x5 x6 x7 x8 x9 x10 x11 x12 x13 x14 (ix2 p q)
      = ((∑ k : Fin 128, val_main_v27 (F := Ideal) x0 x2 x3 x4 x5 x6 x7 x8 (ix2 p k) * x9 (ix2 k q) + x10 (ix1 q)) - x13 (ix1 q))
          * Ideal.rsqrt (x14 (ix1 q) + Ideal.ofBits .f32 0x3A83126F#32) * x11 (ix1 q) + x12 (ix1 q) := by
  have hdot : val_main_v28 (F := Ideal) x0 x2 x3 x4 x5 x6 x7 x8 x9 (ix2 p q)
      = ∑ k : Fin 128, val_main_v27 (F := Ideal) x0 x2 x3 x4 x5 x6 x7 x8 (ix2 p k) * x9 (ix2 k q) := by
    rw [val_main_v28_apply]
    refine Finset.sum_congr rfl fun k _ => ?_
    have el : lidx_main_v28 (ix2 p q) k = ix2 p k := funext fun a => match a with | ⟨0, _⟩ => rfl | ⟨1, _⟩ => rfl
    have er : ridx_main_v28 (ix2 p q) k = ix2 k q := funext fun a => match a with | ⟨0, _⟩ => rfl | ⟨1, _⟩ => rfl
    rw [el, er]
  have h10 : val_main_v30 (F := Ideal) x10 (ix2 p q) = x10 (ix1 q) := colBcast_at _ _ x10 p q
  have h13 : val_main_v33 (F := Ideal) x13 (ix2 p q) = x13 (ix1 q) := colBcast_at _ _ x13 p q
  have h14 : val_main_v39 (F := Ideal) x14 (ix2 p q) = val_main_v37 (F := Ideal) x14 (ix1 q) := colBcast_at _ _ _ p q
  have h11 : val_main_v42 (F := Ideal) x11 (ix2 p q) = x11 (ix1 q) := colBcast_at _ _ x11 p q
  have h12 : val_main_v45 (F := Ideal) x12 (ix2 p q) = x12 (ix1 q) := colBcast_at _ _ x12 p q
  show (((val_main_v28 (F := Ideal) x0 x2 x3 x4 x5 x6 x7 x8 x9 (ix2 p q) + val_main_v30 (F := Ideal) x10 (ix2 p q))
          - val_main_v33 (F := Ideal) x13 (ix2 p q)) * val_main_v39 (F := Ideal) x14 (ix2 p q)) * val_main_v42 (F := Ideal) x11 (ix2 p q)
        + val_main_v45 (F := Ideal) x12 (ix2 p q) = _
  rw [hdot, h10, h13, h14, h11, h12]
  rfl

/-- The third layer (on the bonds' rows) at entry `(p, q)`. -/
theorem layer3_at (x1 : FVec Ideal S800000x64 .f32) (x15 : FVec Ideal S64x128 .f32) (x16 x17 x18 x19 x20 : FVec Ideal S128 .f32)
    (p : Fin 800000) (q : Fin 128) :
    val_main_v65 (F := Ideal) x1 x15 x16 x17 x18 x19 x20 (ix2 p q)
      = ((∑ k : Fin 64, x1 (ix2 p k) * x15 (ix2 k q) + x16 (ix1 q)) - x19 (ix1 q))
          * Ideal.rsqrt (x20 (ix1 q) + Ideal.ofBits .f32 0x3A83126F#32) * x17 (ix1 q) + x18 (ix1 q) := by
  have hdot : val_main_v47 (F := Ideal) x1 x15 (ix2 p q) = ∑ k : Fin 64, x1 (ix2 p k) * x15 (ix2 k q) := by
    rw [val_main_v47_apply]
    refine Finset.sum_congr rfl fun k _ => ?_
    have el : lidx_main_v47 (ix2 p q) k = ix2 p k := funext fun a => match a with | ⟨0, _⟩ => rfl | ⟨1, _⟩ => rfl
    have er : ridx_main_v47 (ix2 p q) k = ix2 k q := funext fun a => match a with | ⟨0, _⟩ => rfl | ⟨1, _⟩ => rfl
    rw [el, er]
  have h16 : val_main_v49 (F := Ideal) x16 (ix2 p q) = x16 (ix1 q) := colBcast_at _ _ x16 p q
  have h19 : val_main_v52 (F := Ideal) x19 (ix2 p q) = x19 (ix1 q) := colBcast_at _ _ x19 p q
  have h20 : val_main_v58 (F := Ideal) x20 (ix2 p q) = val_main_v56 (F := Ideal) x20 (ix1 q) := colBcast_at _ _ _ p q
  have h17 : val_main_v61 (F := Ideal) x17 (ix2 p q) = x17 (ix1 q) := colBcast_at _ _ x17 p q
  have h18 : val_main_v64 (F := Ideal) x18 (ix2 p q) = x18 (ix1 q) := colBcast_at _ _ x18 p q
  show (((val_main_v47 (F := Ideal) x1 x15 (ix2 p q) + val_main_v49 (F := Ideal) x16 (ix2 p q)) - val_main_v52 (F := Ideal) x19 (ix2 p q))
        * val_main_v58 (F := Ideal) x20 (ix2 p q)) * val_main_v61 (F := Ideal) x17 (ix2 p q) + val_main_v64 (F := Ideal) x18 (ix2 p q) = _
  rw [hdot, h16, h19, h20, h17, h18]
  rfl

end Cert.RefAt

end
-- ==== Proof.PreFacts.lean ====
/-
  The precondition, read at the extended reals.

  The precondition is a conjunction of twenty-three tests, each a universal statement over one input array reduced by
  `and` to a single bit: for each of the twenty float inputs `x`, "every entry satisfies |x| < +∞", and for the three
  variance inputs `v`, "every entry satisfies v ≥ 0". Over the extended reals |x| is `max x (-x)`, which is `⊤` exactly
  when `x` is `⊤` or `⊥`; so |x| < ⊤ says that `x` is (the image of) a real number. The word `0x7F800000` denotes `⊤`
  and the word `0x00000000` denotes `0`. A conjunction of bits is 1 exactly when every conjunct is 1, and a reduction by
  `and` over a whole array is 1 only if every entry is 1; reading each test at one entry gives the facts below.
-/
import proofs.«174036_j61314953118453_1_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.PreFacts

open Idealize.ShloMosaic Idealize.ShloMosaic.ValueIdx
open Cert.Pre_finite_inputs

/-- The rank-0 shape has one index. -/
instance : Subsingleton S_.Idx := ⟨fun a b => funext fun d => d.elim0⟩

/-- An extended real whose absolute value `max x (-x)` lies strictly below `⊤` is a real number: at `⊥` the
    absolute value is `max ⊥ ⊤ = ⊤`, at `⊤` it is `⊤`, and neither is below `⊤`. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- The test `x ≥ 0` that came out 1 says `0 ≤ x`: the comparison's bit is the truth value of `0 ≤ x`. -/
theorem nonneg_of_oge_zero (x : EReal)
    (h : Ideal.cmp .oge x (Ideal.ofBits .f32 0x00000000#32) = 1#1) : (0 : EReal) ≤ x := by
  rw [Ideal.ofBits_zero_f32] at h
  by_contra hn
  simp [Ideal.cmp, hn] at h

/-- "Every entry has |x| < +∞", reduced by `and` over the whole array to one bit that is 1: every entry of `x` is a
    real number. One statement for every shape. -/
theorem all_real {s : Shape} {axes : List (Fin s.rank)} (hb : S_.BroadcastsInDim s (![] : Fin 0 → Fin s.rank))
    (hr : s.ReducesTo axes S_) (h0 : 0 < S_.numel) (x : FVec Ideal s .f32) (c : IVec S_ 1)
    (e : Host.reduce IntOp.andi
          (cmpf .olt (Host.absf x) (broadcastInDim s ![] hb (constant (F := Ideal) S_ .f32 0x7F800000#32))) c hr h0 ix0 = 1#1)
    (i : s.Idx) : ∃ r : ℝ, x i = (r : EReal) :=
  real_of_abs_lt_top (x i) (Host.reduce_andi_all _ _ hr h0 ix0 e i)

/-- "Every entry has x ≥ 0", reduced by `and` over the whole array to one bit that is 1: every entry of `x` is
    nonnegative. -/
theorem all_nonneg {s : Shape} {axes : List (Fin s.rank)} (hb : S_.BroadcastsInDim s (![] : Fin 0 → Fin s.rank))
    (hr : s.ReducesTo axes S_) (h0 : 0 < S_.numel) (x : FVec Ideal s .f32) (c : IVec S_ 1)
    (e : Host.reduce IntOp.andi
          (cmpf .oge x (broadcastInDim s ![] hb (constant (F := Ideal) S_ .f32 0x00000000#32))) c hr h0 ix0 = 1#1)
    (i : s.Idx) : (0 : EReal) ≤ x i :=
  nonneg_of_oge_zero (x i) (Host.reduce_andi_all _ _ hr h0 ix0 e i)

/-- What the precondition says of the float inputs: every entry is a real number, and the three variance
    inputs are nowhere negative. -/
structure Facts (a0 : FVec Ideal S100000x128 .f32) (a1 : FVec Ideal S800000x64 .f32) (a3 : FVec Ideal S128x128 .f32)
    (a4 a5 a6 a7 a8 : FVec Ideal S128 .f32) (a9 : FVec Ideal S128x128 .f32) (a10 a11 a12 a13 a14 : FVec Ideal S128 .f32)
    (a15 : FVec Ideal S64x128 .f32) (a16 a17 a18 a19 a20 : FVec Ideal S128 .f32) : Prop where
  r0 : ∀ i, ∃ r : ℝ, a0 i = (r : EReal)
  r1 : ∀ i, ∃ r : ℝ, a1 i = (r : EReal)
  r3 : ∀ i, ∃ r : ℝ, a3 i = (r : EReal)
  r4 : ∀ i, ∃ r : ℝ, a4 i = (r : EReal)
  r5 : ∀ i, ∃ r : ℝ, a5 i = (r : EReal)
  r6 : ∀ i, ∃ r : ℝ, a6 i = (r : EReal)
  r7 : ∀ i, ∃ r : ℝ, a7 i = (r : EReal)
  r8 : ∀ i, ∃ r : ℝ, a8 i = (r : EReal)
  r9 : ∀ i, ∃ r : ℝ, a9 i = (r : EReal)
  r10 : ∀ i, ∃ r : ℝ, a10 i = (r : EReal)
  r11 : ∀ i, ∃ r : ℝ, a11 i = (r : EReal)
  r12 : ∀ i, ∃ r : ℝ, a12 i = (r : EReal)
  r13 : ∀ i, ∃ r : ℝ, a13 i = (r : EReal)
  r14 : ∀ i, ∃ r : ℝ, a14 i = (r : EReal)
  r15 : ∀ i, ∃ r : ℝ, a15 i = (r : EReal)
  r16 : ∀ i, ∃ r : ℝ, a16 i = (r : EReal)
  r17 : ∀ i, ∃ r : ℝ, a17 i = (r : EReal)
  r18 : ∀ i, ∃ r : ℝ, a18 i = (r : EReal)
  r19 : ∀ i, ∃ r : ℝ, a19 i = (r : EReal)
  r20 : ∀ i, ∃ r : ℝ, a20 i = (r : EReal)
  n8 : ∀ i, (0 : EReal) ≤ a8 i
  n14 : ∀ i, (0 : EReal) ≤ a14 i
  n20 : ∀ i, (0 : EReal) ≤ a20 i

/-- The precondition holds (its one bit is 1) only if every float input is real everywhere and the three variance
    inputs are nonnegative everywhere. The conjunction is left-nested in the order the tests are written: the twenty
    finiteness tests (inputs 0, 1, 3, …, 20), then the three sign tests (inputs 8, 14, 20). -/
theorem of_pre [Cert.Pre_finite_inputs.Facts] (a0 : FVec Ideal S100000x128 .f32) (a1 : FVec Ideal S800000x64 .f32)
    (a2 : IVec S800000x2 32) (a3 : FVec Ideal S128x128 .f32) (a4 a5 a6 a7 a8 : FVec Ideal S128 .f32)
    (a9 : FVec Ideal S128x128 .f32) (a10 a11 a12 a13 a14 : FVec Ideal S128 .f32) (a15 : FVec Ideal S64x128 .f32)
    (a16 a17 a18 a19 a20 : FVec Ideal S128 .f32)
    (h : Cert.Pre_finite_inputs.fn (F := Ideal) a0 a1 a2 a3 a4 a5 a6 a7 a8 a9 a10 a11 a12 a13 a14 a15 a16 a17 a18 a19 a20
          = fun _ => 1#1) :
    Facts a0 a1 a3 a4 a5 a6 a7 a8 a9 a10 a11 a12 a13 a14 a15 a16 a17 a18 a19 a20 := by
  have h0 := congrFun h ix0
  dsimp only [fn, fn_part1, fn_part2, fn_part3, fn_part4, fn_part5, fn_part6] at h0
  simp only [andi, IntOp.andi_eq_one] at h0
  obtain ⟨⟨⟨⟨⟨⟨⟨⟨⟨⟨⟨⟨⟨⟨⟨⟨⟨⟨⟨⟨⟨⟨e0, e1⟩, e3⟩, e4⟩, e5⟩, e6⟩, e7⟩, e8⟩, e9⟩, e10⟩, e11⟩, e12⟩, e13⟩, e14⟩, e15⟩, e16⟩, e17⟩, e18⟩, e19⟩, e20⟩, g8⟩, g14⟩, g20⟩ := h0
  exact
    { r0 := all_real _ _ _ a0 _ e0
      r1 := all_real _ _ _ a1 _ e1
      r3 := all_real _ _ _ a3 _ e3
      r4 := all_real _ _ _ a4 _ e4
      r5 := all_real _ _ _ a5 _ e5
      r6 := all_real _ _ _ a6 _ e6
      r7 := all_real _ _ _ a7 _ e7
      r8 := all_real _ _ _ a8 _ e8
      r9 := all_real _ _ _ a9 _ e9
      r10 := all_real _ _ _ a10 _ e10
      r11 := all_real _ _ _ a11 _ e11
      r12 := all_real _ _ _ a12 _ e12
      r13 := all_real _ _ _ a13 _ e13
      r14 := all_real _ _ _ a14 _ e14
      r15 := all_real _ _ _ a15 _ e15
      r16 := all_real _ _ _ a16 _ e16
      r17 := all_real _ _ _ a17 _ e17
      r18 := all_real _ _ _ a18 _ e18
      r19 := all_real _ _ _ a19 _ e19
      r20 := all_real _ _ _ a20 _ e20
      n8 := all_nonneg _ _ _ a8 _ g8
      n14 := all_nonneg _ _ _ a14 _ g14
      n20 := all_nonneg _ _ _ a20 _ g20 }

end Cert.PreFacts
end
-- ==== Proof.Bridge.lean ====
/-
  The kernel's result is the reference's result.

  Under the precondition every float input is real and the three variances are non-negative. Layer by layer:
  the first region's output is the reference's first normalised layer (the layer law, entry by entry); so the two
  programs gather the same rows, and those rows are real; the second region's two folded layers are the reference's
  second and third normalised layers on those rows and on the bonds' rows, and so is their product; the tails are the
  same scatter-add and the same sum.
-/
import proofs.«174036_j61314953118453_1_alg».proof.Proof.KValue
import proofs.«174036_j61314953118453_1_alg».proof.Proof.KAt
import proofs.«174036_j61314953118453_1_alg».proof.Proof.RefAt
import proofs.«174036_j61314953118453_1_alg».proof.Proof.PreFacts

set_option maxRecDepth 16384

noncomputable section

namespace Cert.Bridge

open Idealize.ShloMosaic Idealize.ShloMosaic.ValueIdx Idealize.SL.Sem
open Cert.ReferenceIdeal Cert.ReferenceIdeal.Read
open Cert.KHost Cert.KValue Cert.RefAt

variable {a0 : FVec Ideal S100000x128 .f32} {a1 : FVec Ideal S800000x64 .f32} {a2 : IVec S800000x2 32}
  {a3 : FVec Ideal S128x128 .f32} {a4 a5 a6 a7 a8 : FVec Ideal S128 .f32} {a9 : FVec Ideal S128x128 .f32}
  {a10 a11 a12 a13 a14 : FVec Ideal S128 .f32} {a15 : FVec Ideal S64x128 .f32} {a16 a17 a18 a19 a20 : FVec Ideal S128 .f32}

/-- The first region's output is the reference's first layer. -/
theorem hid_eq (P : Cert.PreFacts.Facts a0 a1 a3 a4 a5 a6 a7 a8 a9 a10 a11 a12 a13 a14 a15 a16 a17 a18 a19 a20) :
    hid a0 a3 a4 a5 a6 a7 a8 = val_main_v18 (F := Ideal) a0 a3 a4 a5 a6 a7 a8 := by
  funext i
  obtain ⟨p, q, rfl⟩ : ∃ (p : Fin 100000) (q : Fin 128), i = ix2 p q := ⟨i 0, i 1, eq_ix2 i⟩
  rw [layer1_at]
  exact dense_fold128 a0 a3 a4 a5 a6 a7 a8 p q (fun k => P.r0 _) P.r3 P.r4 P.r5 P.r6 P.r7 P.r8 P.n8

/-- Every entry of the first layer is a real number. -/
theorem hid_real (P : Cert.PreFacts.Facts a0 a1 a3 a4 a5 a6 a7 a8 a9 a10 a11 a12 a13 a14 a15 a16 a17 a18 a19 a20) (i : S100000x128.Idx) :
    ∃ r : ℝ, val_main_v18 (F := Ideal) a0 a3 a4 a5 a6 a7 a8 i = (r : EReal) := by
  rw [← hid_eq P]
  obtain ⟨p, q, rfl⟩ : ∃ (p : Fin 100000) (q : Fin 128), i = ix2 p q := ⟨i 0, i 1, eq_ix2 i⟩
  exact dense_fold128_real a0 a3 a4 a5 a6 a7 a8 p q (fun k => P.r0 _) P.r3 P.r4 P.r5 P.r6 P.r7 P.r8 P.n8

/-- The two programs gather the same rows. -/
theorem nbr_eq (P : Cert.PreFacts.Facts a0 a1 a3 a4 a5 a6 a7 a8 a9 a10 a11 a12 a13 a14 a15 a16 a17 a18 a19 a20) :
    nbrRows (hid a0 a3 a4 a5 a6 a7 a8) a2 = val_main_v27 (F := Ideal) a0 a2 a3 a4 a5 a6 a7 a8 := by
  rw [hid_eq P]; rfl

/-- A gathered entry is an entry of the first layer: a real number. -/
theorem nbr_real (P : Cert.PreFacts.Facts a0 a1 a3 a4 a5 a6 a7 a8 a9 a10 a11 a12 a13 a14 a15 a16 a17 a18 a19 a20) (j : S800000x128.Idx) :
    ∃ r : ℝ, val_main_v27 (F := Ideal) a0 a2 a3 a4 a5 a6 a7 a8 j = (r : EReal) :=
  hid_real P
    (gather_S100000x128_S800000x1_S800000x128_1_0_n_n_0_1_1128.operandIdx j (val_main_v26 (F := Ideal) a2))

/-- The second region's output on the gathered rows is the reference's gated product of its second and third layers. -/
theorem comb_eq (P : Cert.PreFacts.Facts a0 a1 a3 a4 a5 a6 a7 a8 a9 a10 a11 a12 a13 a14 a15 a16 a17 a18 a19 a20) :
    comb (val_main_v27 (F := Ideal) a0 a2 a3 a4 a5 a6 a7 a8) a1 a9 a10 a11 a12 a13 a14 a15 a16 a17 a18 a19 a20
      = val_main_v66 (F := Ideal) a0 a1 a2 a3 a4 a5 a6 a7 a8 a9 a10 a11 a12 a13 a14 a15 a16 a17 a18 a19 a20 := by
  funext i
  obtain ⟨p, q, rfl⟩ : ∃ (p : Fin 800000) (q : Fin 128), i = ix2 p q := ⟨i 0, i 1, eq_ix2 i⟩
  show Cert.KSpec.dense (val_main_v27 (F := Ideal) a0 a2 a3 a4 a5 a6 a7 a8) (wfold a9 (scale a11 a14)) (bfold a10 a12 a13 (scale a11 a14)) (ix2 p q)
        * Cert.KSpec.dense a1 (wfold64 a15 (scale a17 a20)) (bfold a16 a18 a19 (scale a17 a20)) (ix2 p q)
      = val_main_v46 (F := Ideal) a0 a2 a3 a4 a5 a6 a7 a8 a9 a10 a11 a12 a13 a14 (ix2 p q)
        * val_main_v65 (F := Ideal) a1 a15 a16 a17 a18 a19 a20 (ix2 p q)
  rw [layer2_at, layer3_at,
    dense_fold128 (val_main_v27 (F := Ideal) a0 a2 a3 a4 a5 a6 a7 a8) a9 a10 a11 a12 a13 a14 p q
      (fun k => nbr_real (a2 := a2) P _) P.r9 P.r10 P.r11 P.r12 P.r13 P.r14 P.n14,
    dense_fold64 a1 a15 a16 a17 a18 a19 a20 p q (fun k => P.r1 _) P.r15 P.r16 P.r17 P.r18 P.r19 P.r20 P.n20]

/-- THE RESULTS AGREE: the kernel's result, as the function of its arguments the run gives, is the reference's last stage. -/
theorem out_eq (P : Cert.PreFacts.Facts a0 a1 a3 a4 a5 a6 a7 a8 a9 a10 a11 a12 a13 a14 a15 a16 a17 a18 a19 a20) :
    out a0 a1 a2 a3 a4 a5 a6 a7 a8 a9 a10 a11 a12 a13 a14 a15 a16 a17 a18 a19 a20 = val_main_v72 (F := Ideal) a0 a1 a2 a3 a4 a5 a6 a7 a8 a9 a10 a11 a12 a13 a14 a15 a16 a17 a18 a19 a20 := by
  unfold out
  rw [nbr_eq (a2 := a2) P, comb_eq (a2 := a2) P, hid_eq P]
  rfl

/-- The reference's last stage at equal arguments. -/
theorem stage_congr {b0 : FVec Ideal S100000x128 .f32} {b1 : FVec Ideal S800000x64 .f32} {b2 : IVec S800000x2 32}
    {b3 : FVec Ideal S128x128 .f32} {b4 b5 b6 b7 b8 : FVec Ideal S128 .f32} {b9 : FVec Ideal S128x128 .f32}
    {b10 b11 b12 b13 b14 : FVec Ideal S128 .f32} {b15 : FVec Ideal S64x128 .f32} {b16 b17 b18 b19 b20 : FVec Ideal S128 .f32}
    (h0 : b0 = a0) (h1 : b1 = a1) (h2 : b2 = a2) (h3 : b3 = a3) (h4 : b4 = a4) (h5 : b5 = a5) (h6 : b6 = a6) (h7 : b7 = a7) (h8 : b8 = a8) (h9 : b9 = a9) (h10 : b10 = a10) (h11 : b11 = a11) (h12 : b12 = a12) (h13 : b13 = a13) (h14 : b14 = a14) (h15 : b15 = a15) (h16 : b16 = a16) (h17 : b17 = a17) (h18 : b18 = a18) (h19 : b19 = a19) (h20 : b20 = a20) :
    val_main_v72 (F := Ideal) a0 a1 a2 a3 a4 a5 a6 a7 a8 a9 a10 a11 a12 a13 a14 a15 a16 a17 a18 a19 a20
      = val_main_v72 (F := Ideal) b0 b1 b2 b3 b4 b5 b6 b7 b8 b9 b10 b11 b12 b13 b14 b15 b16 b17 b18 b19 b20 := by
  subst h0 h1 h2 h3 h4 h5 h6 h7 h8 h9 h10 h11 h12 h13 h14 h15 h16 h17 h18 h19 h20
  rfl

end Cert.Bridge

end
-- ==== Proof.lean ====
/-
  A graph layer that passes messages along bonds: a dense layer with inference-time batch normalisation on the atoms' rows;
  the rows of its output gathered along the bond list's second column; on those rows and on the bonds' rows two more such
  layers, multiplied entry by entry; the products added into the rows the bond list's first column names; and the first
  layer's output added.

  The kernel program folds each normalisation `((y + b) − μ)·(v + ε)^(−1/2)·γ + β` into the layer's weights and bias on
  the host (`s = γ·(v + ε)^(−1/2)`, weights `W·s`, bias `b·s + (β − μ·s)`) and runs the three matrix products in two kernel
  regions (in a short float format, which on the extended reals is the identity); the reference applies the normalisation
  after each product. The two agree where distributivity holds: every float input finite, and each variance non-negative,
  so that `v + ε > 0` and the reciprocal square root is a real number (at `v + ε = 0` it is `+∞`, and the folded weights
  then sum infinities of both signs where the reference has one infinity: the claim needs the variance's sign).

  The kernel's run is the generated frame's launch with the result array named; each region's output array is read off
  that frame as a whole-array dense layer; the host stretches are read back operation by operation; the reference's run
  and its stages read at an index are the generated ones; the layer law joins the two sides entry by entry, and the gather
  and the scatter-add are the same functions on both sides.
-/
import proofs.«174036_j61314953118453_1_alg».proof.Defs
import proofs.«174036_j61314953118453_1_alg».proof.Proof.Gen.Kernel
import proofs.«174036_j61314953118453_1_alg».proof.Proof.Gen.Kernel.Frame
import proofs.«174036_j61314953118453_1_alg».proof.Proof.Gen.KernelIdeal
import proofs.«174036_j61314953118453_1_alg».proof.Proof.Gen.KernelIdeal.Frame
import proofs.«174036_j61314953118453_1_alg».proof.Proof.Gen.ReferenceIdeal
import proofs.«174036_j61314953118453_1_alg».proof.Proof.Gen.ReferenceIdeal.Run
import proofs.«174036_j61314953118453_1_alg».proof.Proof.Gen.ReferenceIdeal.Read
import proofs.«174036_j61314953118453_1_alg».proof.Proof.Gen.Pre_finite_inputs
import proofs.«174036_j61314953118453_1_alg».proof.Proof.KRun
import proofs.«174036_j61314953118453_1_alg».proof.Proof.KReg0
import proofs.«174036_j61314953118453_1_alg».proof.Proof.KReg1
import proofs.«174036_j61314953118453_1_alg».proof.Proof.KValue
import proofs.«174036_j61314953118453_1_alg».proof.Proof.Bridge
import proofs.«174036_j61314953118453_1_alg».proof.Proof.PreFacts
import Idealize.ShloMosaic.Adequacy
import Idealize.ShloMosaic.Init

set_option maxRecDepth 16384

noncomputable section

open Idealize.ShloMosaic Idealize.ShloMosaic.TcCoe Idealize.SL.Sem

namespace Cert.Proof.Claims

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- Both programs end, from memories agreeing on the arguments, with the same result array: the kernel's is `out` of its
    arguments, the reference's its last stage, and under the precondition these are one function. -/
theorem algebraic : Cert.algebraic_KernelIdeal_ReferenceIdeal := by
  intro m ρ m' ρ' hpre hagree
  refine ⟨fun c => Cert.ReferenceIdeal.Value.res_main_v72 (F := Ideal) m' c, ?_, ?_⟩
  · refine (θ_run Cert.KernelIdeal.defs _ _).mono (fun r h c => ⟨(h c).1.trans ?_, (h c).2⟩)
      (Cert.KernelIdeal.Named.run_named (F := Ideal) m ρ)
    obtain ⟨e0, e1, e2, e3, e4, e5, e6, e7, e8, e9, e10, e11, e12, e13, e14, e15, e16, e17, e18, e19, e20⟩ := hagree c
    refine (Cert.KValue.result m ρ Cert.KReg0.arrAt_eq Cert.KReg1.arrAt_eq c).trans ?_
    refine (Cert.Bridge.out_eq (Cert.PreFacts.of_pre _ _ _ _ _ _ _ _ _ _ _ _ _ _ _ _ _ _ _ _ _ (hpre c))).trans ?_
    refine (Cert.Bridge.stage_congr e0 e1 e2 e3 e4 e5 e6 e7 e8 e9 e10 e11 e12 e13 e14 e15 e16 e17 e18 e19 e20).trans ?_
    exact (Cert.ReferenceIdeal.Read.val_main_v72_eq m' c).symm
  · exact Cert.ReferenceIdeal.Value.run (F := Ideal) m' ρ'

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
